-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S32x512 : Shape := ⟨2, ![32, 512]⟩
abbrev S512x32 : Shape := ⟨2, ![512, 32]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x512x64x64 .f32) (main_arg1 : FVec F S32x512 .f32) (main_arg2 : FVec F S512x32 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S32x512x64x64 : Shape := ⟨4, ![32, 512, 64, 64]⟩
abbrev S32x512 : Shape := ⟨2, ![32, 512]⟩
abbrev S512x32 : Shape := ⟨2, ![512, 32]⟩
abbrev S1x512x64x64 : Shape := ⟨4, ![1, 512, 64, 64]⟩
abbrev S1x512x32x64 : Shape := ⟨4, ![1, 512, 32, 64]⟩
abbrev S512x1 : Shape := ⟨2, ![512, 1]⟩
abbrev S512x64x64 : Shape := ⟨3, ![512, 64, 64]⟩
abbrev S512 : Shape := ⟨1, ![512]⟩
abbrev S512x1x1 : Shape := ⟨3, ![512, 1, 1]⟩
abbrev S32 : Shape := ⟨1, ![32]⟩
abbrev S1x32 : Shape := ⟨2, ![1, 32]⟩
abbrev S512x32x64 : Shape := ⟨3, ![512, 32, 64]⟩

abbrev nBuf : Space → Nat
  | .hbm => 5
  | .vmem => 7
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S512x32, .f32⟩
  | .hbm, ⟨4, _⟩ => ⟨S32x512x64x64, .f32⟩
  | .local _ .vmem, ⟨0, _⟩ => ⟨S1x512x64x64, .f32⟩
  | .local _ .vmem, ⟨1, _⟩ => ⟨S1x512x64x64, .f32⟩
  | .local _ .vmem, ⟨2, _⟩ => ⟨S512x32, .f32⟩
  | .local _ .vmem, ⟨3, _⟩ => ⟨S512x32, .f32⟩
  | .local _ .vmem, ⟨4, _⟩ => ⟨S1x512x32x64, .f32⟩
  | .local _ .vmem, ⟨5, _⟩ => ⟨S1x512x32x64, .f32⟩
  | .local _ .vmem, ⟨6, _⟩ => ⟨S512x1, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 2], ![false, false]⟩

def k0_off1 (i : grid0.Coords) : Fin 4 → Nat :=
  let c0_2 : Index := 0#32
  let c0_3 : Index := 0#32
  let arg1 : BitVec 32 := BitVec.ofNat 32 (i 1).val
  let c32_i32 : BitVec 32 := 32#32
  let v4 : BitVec 32 := Scalar.muli arg1 c32_i32
  let v5 : Index := Scalar.indexCast v4
  let c0_4 : Index := 0#32
  ![0, 0, v5.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S32x512_S512x32_1_0 : S32x512.Transposes [1, 0] S512x32
  inb_S1x512x64x64_S1x512x64x64_0_0_0_0 : ∀ a, (![0, 0, 0, 0] : Fin 4 → Nat) a + S1x512x64x64.size a ≤ S1x512x64x64.size a
  h_S1x512x64x64 : 0 < S1x512x64x64.numel
  shapeCasts_S1x512x64x64_S512x64x64 : S1x512x64x64.ShapeCasts S512x64x64
  reduces_S512x64x64_S512 : S512x64x64.Reduces [1, 2] S512
  shapeCasts_S512_S512x1x1 : S512.ShapeCasts S512x1x1
  shapeCasts_S512x1x1_S512x1 : S512x1x1.ShapeCasts S512x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  broadcasts_S512x1_S512x32 : S512x1.Broadcasts S512x32
  reduces_S512x32_S32 : S512x32.Reduces [0] S32
  shapeCasts_S32_S1x32 : S32.ShapeCasts S1x32
  broadcasts_S1x32_S512x32 : S1x32.Broadcasts S512x32
  reduces_S512x32_S512 : S512x32.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x512x32x64 : 0 < S1x512x32x64.numel
  shapeCasts_S1x512x32x64_S512x32x64 : S1x512x32x64.ShapeCasts S512x32x64
  shapeCasts_S512x1_S512x1x1 : S512x1.ShapeCasts S512x1x1
  broadcasts_S512x1x1_S512x32x64 : S512x1x1.Broadcasts S512x32x64
  inb_S1x512x32x64_S1x512x32x64_0_0_0_0 : ∀ a, (![0, 0, 0, 0] : Fin 4 → Nat) a + S1x512x32x64.size a ≤ S1x512x32x64.size a
  shapeCasts_S512x32x64_S1x512x32x64 : S512x32x64.ShapeCasts S1x512x32x64
  hrank0 : 0 < grid0.rank
  k0_off1_inb : ∀ i : grid0.Coords, ∀ a, (k0_off1 i) a + S1x512x32x64.size a ≤ S1x512x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64x64.size a ≤ S32x512x64x64.size a
  hwx0_0 : ∀ i : grid0.Coords, EltTy.bits .f32 = 32 ∨ (Rect.block (s := S32x512x64x64) S1x512x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x32x64.size a ≤ S32x512x64x64.size a
  hwx0_3 : ∀ i : grid0.Coords, EltTy.bits .f32 = 32 ∨ (Rect.block (s := S32x512x64x64) S1x512x32x64.size (cc0_transform_3 i) (hinb0_3 i)).WholeWords (EltTy.packing .f32)

variable [Facts₀]

abbrev win0_0 : Pipeline.Window sig grid0 :=
  Pipeline.Window.ofSpec (Memref.whole main_arg0) S1x512x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x32x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x64x64 : Shape := ⟨4, ![32, 512, 64, 64]⟩
abbrev S32x512 : Shape := ⟨2, ![32, 512]⟩
abbrev S512x32 : Shape := ⟨2, ![512, 32]⟩
abbrev S32x512x4096 : Shape := ⟨3, ![32, 512, 4096]⟩
abbrev S32x512x1 : Shape := ⟨3, ![32, 512, 1]⟩
abbrev S1x512x2048 : Shape := ⟨3, ![1, 512, 2048]⟩
abbrev S1x512x1 : Shape := ⟨3, ![1, 512, 1]⟩
abbrev S512x1 : Shape := ⟨2, ![512, 1]⟩
abbrev S512x2048 : Shape := ⟨2, ![512, 2048]⟩
abbrev S512 : Shape := ⟨1, ![512]⟩
abbrev S32 : Shape := ⟨1, ![32]⟩
abbrev S1x32 : Shape := ⟨2, ![1, 32]⟩

abbrev nBuf : Space → Nat
  | .hbm => 8
  | .vmem => 13
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S32x512x4096, .f32⟩
  | .hbm, ⟨4, _⟩ => ⟨S512x32, .f32⟩
  | .hbm, ⟨5, _⟩ => ⟨S32x512x1, .f32⟩
  | .hbm, ⟨6, _⟩ => ⟨S32x512x4096, .f32⟩
  | .hbm, ⟨7, _⟩ => ⟨S32x512x64x64, .f32⟩
  | .local _ .vmem, ⟨0, _⟩ => ⟨S1x512x2048, .f32⟩
  | .local _ .vmem, ⟨1, _⟩ => ⟨S1x512x2048, .f32⟩
  | .local _ .vmem, ⟨2, _⟩ => ⟨S512x32, .f32⟩
  | .local _ .vmem, ⟨3, _⟩ => ⟨S512x32, .f32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | .local _ .vmem, ⟨7, _⟩ => ⟨S1x512x2048, .f32⟩
  | .local _ .vmem, ⟨8, _⟩ => ⟨S1x512x2048, .f32⟩
  | .local _ .vmem, ⟨9, _⟩ => ⟨S1x512x1, .f32⟩
  | .local _ .vmem, ⟨10, _⟩ => ⟨S1x512x1, .f32⟩
  | .local _ .vmem, ⟨11, _⟩ => ⟨S1x512x2048, .f32⟩
  | .local _ .vmem, ⟨12, _⟩ => ⟨S1x512x2048, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x512x64x64_S32x512x4096 : S32x512x64x64.ShapeCasts S32x512x4096
  transposes_S32x512_S512x32_1_0 : S32x512.Transposes [1, 0] S512x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  broadcasts_S512x1_S512x32 : S512x1.Broadcasts S512x32
  reduces_S512x32_S32 : S512x32.Reduces [0] S32
  shapeCasts_S32_S1x32 : S32.ShapeCasts S1x32
  broadcasts_S1x32_S512x32 : S1x32.Broadcasts S512x32
  reduces_S512x32_S512 : S512x32.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  broadcasts_S512x1_S512x2048 : S512x1.Broadcasts S512x2048
  shapeCasts_S512x2048_S1x512x2048 : S512x2048.ShapeCasts S1x512x2048
  shapeCasts_S32x512x4096_S32x512x64x64 : S32x512x4096.ShapeCasts S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x512x4096.size a
  hwx0_0 : ∀ i : grid0.Coords, EltTy.bits .f32 = 32 ∨ (Rect.block (s := S32x512x4096) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S32x512x1.size a
  hwx0_3 : ∀ i : grid0.Coords, EltTy.bits .f32 = 32 ∨ (Rect.block (s := S32x512x1) S1x512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S32x512x4096.size a
  hwx1_0 : ∀ i : grid1.Coords, EltTy.bits .f32 = 32 ∨ (Rect.block (s := S32x512x4096) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S32x512x1.size a
  hwx1_1 : ∀ i : grid1.Coords, EltTy.bits .f32 = 32 ∨ (Rect.block (s := S32x512x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S32x512x4096.size a
  hwx1_2 : ∀ i : grid1.Coords, EltTy.bits .f32 = 32 ∨ (Rect.block (s := S32x512x4096) S1x512x2048.size (cc1_transform_2 i) (hinb1_2 i)).WholeWords (EltTy.packing .f32)

variable [Facts₀]

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The squeeze-and-excitation map both programs compute, stated once over the extended reals.

  For a batch element b and a channel c the squeeze is the sum of x[b, c, ., .] over the 64 x 64 spatial
  positions; the excitation multiplies the 512 sums by 2^-12, contracts them with the transpose of W1 over the
  channels, clamps the 32 results below at 0, contracts those with W2 over the hidden axis and applies the
  logistic function; the result scales x[b, c, ., .].  The kernel takes the 4096 terms of a sum in one reduction
  over two axes; the reference flattens the spatial axes and adds two half sums of 2048 terms to a zero
  accumulator.  Addition of extended reals is commutative and associative, so the two agree with no finiteness
  assumption.
-/
import Idealize.ShloMosaic.PureOps
import Idealize.ShloMosaic.PureOps.Ideal
import Idealize.ShloMosaic.PureOps.Ideal.Laws
import Idealize.ShloMosaic.Lib.ValueIdx

noncomputable section

namespace Cert.SE

open Idealize.ShloMosaic Idealize.ShloMosaic.ValueIdx

abbrev SX : Shape := ⟨4, ![32, 512, 64, 64]⟩
abbrev SFlat : Shape := ⟨3, ![32, 512, 4096]⟩
abbrev SGate : Shape := ⟨3, ![32, 512, 1]⟩
abbrev SW1 : Shape := ⟨2, ![32, 512]⟩
abbrev SW : Shape := ⟨2, ![512, 32]⟩
abbrev SCol : Shape := ⟨2, ![512, 1]⟩
abbrev SChan : Shape := ⟨1, ![512]⟩
abbrev SHid : Shape := ⟨1, ![32]⟩
abbrev SRow : Shape := ⟨2, ![1, 32]⟩
abbrev SMap : Shape := ⟨3, ![512, 64, 64]⟩
abbrev STile : Shape := ⟨2, ![512, 2048]⟩

variable {F : FTy → Type} [FloatOps F]

/-- The excitation: from the column of per-channel sums to the column of per-channel gates
    (scale by 2^-12, contract with the transpose of W1 over the channels, clamp at 0, contract with W2 over the
    hidden axis, logistic). -/
def excite (acc : FVec F SCol .f32) (w1t w2 : FVec F SW .f32) : FVec F SCol .f32 :=
  logistic (shapeCast SCol
    (multiReduction .add [1] SChan
      (mulf w2 (broadcastTo SW
        (maximumf
          (shapeCast SRow
            (multiReduction .add [0] SHid
              (mulf (shapeCast SW w1t (by decide))
                (broadcastTo SW (mulf acc (broadcast SCol (Scalar.ofBits .f32 0x39800000#32))) (by decide)))
              0x00000000#32 (by decide) (.inl rfl) rfl)
            (by decide))
          (broadcast SRow (Scalar.ofBits .f32 0x00000000#32)))
        (by decide)))
      0x00000000#32 (by decide) (.inl rfl) rfl)
    (by decide))

/-- The squeeze of batch element b, channel c: the sum over the 64 x 64 positions. -/
def squeeze (x : FVec Ideal SX .f32) (b : Fin 32) (c : Fin 512) : EReal :=
  ∑ h : Fin 64, ∑ w : Fin 64, x (ix4 b c h w)

/-- The 512 squeezes of batch element b as a column. -/
def squeezeCol (x : FVec Ideal SX .f32) (b : Fin 32) : FVec Ideal SCol .f32 :=
  fun j => squeeze x b ⟨(j 0).val, (j 0).isLt⟩

/-- The gate of batch element b, channel c. -/
def gate (x : FVec Ideal SX .f32) (w1 : FVec Ideal SW1 .f32) (w2 : FVec Ideal SW .f32) (b : Fin 32) (c : Fin 512) : EReal :=
  excite (F := Ideal) (squeezeCol x b) (transpose SW [1, 0] w1 (by decide)) w2 (ix2 c 0)

/-- The result: every entry of x scaled by the gate of its batch element and channel. -/
def G (x : FVec Ideal SX .f32) (w1 : FVec Ideal SW1 .f32) (w2 : FVec Ideal SW .f32) : FVec Ideal SX .f32 :=
  fun i => x i * gate x w1 w2 ⟨(i 0).val, (i 0).isLt⟩ ⟨(i 1).val, (i 1).isLt⟩

/-! ## The two ways the programs take a squeeze, and that they agree -/

/-- The reference's squeeze of batch element b over the flattened spatial axis: a zero accumulator, plus the
    sum of the first 2048 positions, plus the sum of the last 2048. -/
def tileSums (xf : FVec Ideal SFlat .f32) (b : Fin 32) : FVec Ideal SCol .f32 :=
  fun j => (0 + ∑ k : Fin 2048, xf (ix3 b (⟨(j 0).val, (j 0).isLt⟩ : Fin 512) (⟨k.val, by omega⟩ : Fin 4096)))
    + ∑ k : Fin 2048, xf (ix3 b (⟨(j 0).val, (j 0).isLt⟩ : Fin 512) (⟨2048 + k.val, by omega⟩ : Fin 4096))

/-! ### Helper facts: sums over the flattened spatial axis, and the indices a two-axis reduction keeps -/

/-- A sum of 4096 terms is the sum of its first 2048 terms plus the sum of its last 2048 terms (added to zero). -/
theorem sum_halves (g : Fin 4096 → EReal) :
    (0 + ∑ k : Fin 2048, g (⟨k.val, by omega⟩ : Fin 4096)) + ∑ k : Fin 2048, g (⟨2048 + k.val, by omega⟩ : Fin 4096)
      = ∑ l : Fin 4096, g l := by
  rw [zero_add]
  exact (Fin.sum_univ_add (a := 2048) (b := 2048) g).symm

/-- A sum over the 4096 row-major positions of a 64 x 64 grid, each read at its row (the quotient by 64) and its
    column (the remainder), is the double sum over rows and columns. -/
theorem sum_divmod (f : Fin 64 → Fin 64 → EReal) :
    ∑ l : Fin 4096, f (⟨l.val / 64, by omega⟩ : Fin 64) (⟨l.val % 64, by omega⟩ : Fin 64)
      = ∑ h : Fin 64, ∑ w : Fin 64, f h w := by
  rw [← Fintype.sum_prod_type']
  exact Equiv.sum_comp (finProdFinEquiv (m := 64) (n := 64)).symm (fun p : Fin 64 × Fin 64 => f p.1 p.2)

/-- The flattened vector at (b, c, l) is the original at (b, c, l / 64, l % 64): the two indices have the same
    row-major position. -/
theorem flat_apply (x : FVec Ideal SX .f32) (b : Fin 32) (c : Fin 512) (l : Fin 4096) :
    shapeCast SFlat x (by decide) (ix3 b c l)
      = x (ix4 b c (⟨l.val / 64, by omega⟩ : Fin 64) (⟨l.val % 64, by omega⟩ : Fin 64)) := by
  unfold shapeCast
  refine congrArg x (Shape.reshapeEquiv_eq_of_rowMajor _ ?_)
  rw [Shape.rowMajor_val_four, Shape.rowMajor_val_three]
  show ((b.val * 512 + c.val) * 64 + l.val / 64) * 64 + l.val % 64 = (b.val * 512 + c.val) * 4096 + l.val
  omega

/-- An index of the 512 x 64 x 64 shape that keeps channel c once its two spatial coordinates are dropped is
    (c, h, w) for its own spatial coordinates h and w. -/
theorem eq_ix3_of_drop (hred : SMap.Reduces [1, 2] SChan) (c : Fin 512) (i : SMap.Idx) (hi : hred.drop i = ix1 c) :
    i = ix3 c (⟨(i 1).val, (i 1).isLt⟩ : Fin 64) (⟨(i 2).val, (i 2).isLt⟩ : Fin 64) := by
  have h0 : (i 0).val = c.val := by
    rw [← hred.drop_apply_val_of_eq i 0 0, hi]
  funext a
  match a with
  | ⟨0, _⟩ => exact Fin.ext h0
  | ⟨1, _⟩ => exact Fin.ext rfl
  | ⟨2, _⟩ => exact Fin.ext rfl

/-- A sum over two axes of a 512 x 64 x 64 vector, read at channel c, is the double sum over its positions. -/
theorem reduce_map (v : FVec Ideal SMap .f32) (c : Fin 512) :
    multiReduction .add [1, 2] SChan v 0x00000000#32 (by decide) (.inl rfl) rfl (ix1 c)
      = ∑ h : Fin 64, ∑ w : Fin 64, v (ix3 c h w) := by
  have hred : SMap.Reduces [1, 2] SChan := by decide
  show Ideal.reduceAdd hred v (ix1 c) = _
  unfold Ideal.reduceAdd
  rw [← Finset.sum_product' (Finset.univ : Finset (Fin 64)) (Finset.univ : Finset (Fin 64)) (fun h w => v (ix3 c h w))]
  refine Finset.sum_nbij'
    (fun i => ((⟨(i 1).val, (i 1).isLt⟩ : Fin 64), (⟨(i 2).val, (i 2).isLt⟩ : Fin 64)))
    (fun p => ix3 c p.1 p.2) ?_ ?_ ?_ ?_ ?_
  · intro i _
    exact Finset.mem_product.2 ⟨Finset.mem_univ _, Finset.mem_univ _⟩
  · intro p _
    refine Finset.mem_filter.2 ⟨Finset.mem_univ _, ?_⟩
    funext b
    match b with
    | ⟨0, _⟩ => exact Fin.ext (hred.drop_apply_val_of_eq (ix3 c p.1 p.2) 0 0)
  · intro i hi
    exact (eq_ix3_of_drop hred c i (Finset.mem_filter.1 hi).2).symm
  · intro p _
    rfl
  · intro i hi
    exact congrArg v (eq_ix3_of_drop hred c i (Finset.mem_filter.1 hi).2)

/-- A lane sum of a 512 x 2048 vector, read at channel c, is the sum over its 2048 lanes. -/
theorem reduce_tile (v : FVec Ideal STile .f32) (c : Fin 512) :
    multiReduction .add [1] SChan v 0x00000000#32 (by decide) (.inl rfl) rfl (ix1 c)
      = ∑ k : Fin 2048, v (ix2 c k) := by
  have hred : STile.Reduces [1] SChan := by decide
  refine (Ideal.multiReduction_add_single (a := 1) v _ hred _ _ (ix1 c)).trans ?_
  refine Finset.sum_congr rfl fun k _ => congrArg v ?_
  funext a
  match a with
  | ⟨0, _⟩ => exact Fin.ext rfl
  | ⟨1, _⟩ => exact Fin.ext rfl

/-- Flattening the spatial axes row-major and adding the two half sums to zero gives the squeeze. -/
theorem tileSums_flatten (x : FVec Ideal SX .f32) (b : Fin 32) :
    tileSums (shapeCast SFlat x (by decide)) b = squeezeCol x b := by
  funext j
  show (0 + ∑ k : Fin 2048, shapeCast SFlat x (by decide) (ix3 b (⟨(j 0).val, (j 0).isLt⟩ : Fin 512) (⟨k.val, by omega⟩ : Fin 4096)))
      + ∑ k : Fin 2048, shapeCast SFlat x (by decide) (ix3 b (⟨(j 0).val, (j 0).isLt⟩ : Fin 512) (⟨2048 + k.val, by omega⟩ : Fin 4096))
    = ∑ h : Fin 64, ∑ w : Fin 64, x (ix4 b (⟨(j 0).val, (j 0).isLt⟩ : Fin 512) h w)
  rw [← sum_divmod (fun h w => x (ix4 b (⟨(j 0).val, (j 0).isLt⟩ : Fin 512) h w)),
    ← sum_halves (fun l : Fin 4096 => x (ix4 b (⟨(j 0).val, (j 0).isLt⟩ : Fin 512) (⟨l.val / 64, by omega⟩ : Fin 64) (⟨l.val % 64, by omega⟩ : Fin 64)))]
  simp only [flat_apply]

end Cert.SE

end
-- ==== Proof.KernelValue.lean ====
/-
  The idealized kernel's result array as one function of its argument arrays.

  A grid point is (b, k) with k in {0, 1}.  At k = 0 the body stores into a scratch column the gate of batch
  element b (the excitation of the sums of x[b, c, ., .] over the 64 x 64 positions, taken in one reduction over
  two axes); the column is carried to k = 1.  At both points the body multiplies the k-th half (32 rows) of
  x[b, ., ., .] by the column, broadcast along rows and lanes, and the product is written back as block (b, k)
  of the result.  The blocks tile the result, so the result is x scaled entry by entry by the gate of its
  batch element and channel.
-/
import proofs.«159505_g2000407024704625_pallasbulk_269_7_alg».proof.Proof.Gen.KernelIdeal.Value
import proofs.«159505_g2000407024704625_pallasbulk_269_7_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Pipeline.FrameBody
import Idealize.ShloMosaic.Lib.Tactic

set_option maxRecDepth 16384

noncomputable section

namespace Cert.KernelIdeal.HandValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

/-! ## What each case of the body leaves, for every float family -/

section Pieces
variable {F : FTy → Type} [FloatOps F]

/-- The offsets of an access to a whole rank-4 block are all zero. -/
theorem zeros4 : (![0, 0, 0, 0] : Fin 4 → Nat) = fun _ => 0 := funext fun a => by fin_cases a <;> rfl
/-- The offsets of an access to a whole rank-2 block are all zero. -/
theorem zeros2 : (![0, 0] : Fin 2 → Nat) = fun _ => 0 := funext fun a => by fin_cases a <;> rfl

/-- At an even point the scratch ends holding the gate column computed from the three input blocks. -/
theorem scratch_even (c : Dev nD) (i : grid0.Coords) (arg2 : Memref sig .tc .vmem S1x512x64x64 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x512x32x64 .f32) (harg5 : arg5.IsWhole) (arg6 : Memref sig .tc .vmem S512x1 .f32) (harg6 : arg6.IsWhole) (hc0 : cond0_0 i)
    (x0 : Vec F S1x512x64x64 .f32) (x1 : Vec F S512x32 .f32) (x2 : Vec F S512x32 .f32) :
    sout0_A_0 c i arg2 harg2 arg3 harg3 arg4 harg4 arg5 harg5 arg6 harg6 hc0 x0 x1 x2 = k0_pay1 x0 x1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_run_names
  rw [View.canon_unit_zero zeros2]
  simp only [View.readAt_eq_ld, harg2.read_unread, harg3.read_unread, harg4.read_unread,
    View.ld_unit_zero (S := S1x512x64x64) zeros4, View.ld_unit_zero (S := S512x32) zeros2]

/-- At an even point the output block ends holding the half slab of the x block times that gate column,
    the column being read back from the scratch just after it was stored. -/
theorem block_even (c : Dev nD) (i : grid0.Coords) (arg2 : Memref sig .tc .vmem S1x512x64x64 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x512x32x64 .f32) (harg5 : arg5.IsWhole) (arg6 : Memref sig .tc .vmem S512x1 .f32) (harg6 : arg6.IsWhole) (hc0 : cond0_0 i)
    (x0 : Vec F S1x512x64x64 .f32) (x1 : Vec F S512x32 .f32) (x2 : Vec F S512x32 .f32) :
    out0_A_3 c i arg2 harg2 arg3 harg3 arg4 harg4 arg5 harg5 arg6 harg6 hc0 x0 x1 x2
      = k0_pay2 (k0_pay1 x0 x1 x2) (View.ld x0 (Rect.unit (s := S1x512x64x64) (k0_off1 i) S1x512x32x64.size (k0_off1_inb i))) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_run_names
  rw [View.canon_unit_zero zeros4]
  simp only [View.readCov_unit_zero (S := S512x1) _ zeros2, View.readAt_eq_ld, harg2.read_unread, harg3.read_unread,
    harg4.read_unread, View.ld_unit_zero (S := S1x512x64x64) zeros4, View.ld_unit_zero (S := S512x32) zeros2]

/-- At an odd point the output block ends holding the half slab of the x block times the column the
    scratch carried in from the point before. -/
theorem block_odd (c : Dev nD) (i : grid0.Coords) (arg2 : Memref sig .tc .vmem S1x512x64x64 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x512x32x64 .f32) (harg5 : arg5.IsWhole) (arg6 : Memref sig .tc .vmem S512x1 .f32) (harg6 : arg6.IsWhole) (hc0 : ¬cond0_0 i)
    (x0 : Vec F S1x512x64x64 .f32) (x1 : Vec F S512x32 .f32) (x2 : Vec F S512x32 .f32) (xs0 : Vec F S512x1 .f32) :
    out0_B_3 c i arg2 harg2 arg3 harg3 arg4 harg4 arg5 harg5 arg6 harg6 hc0 x0 x1 x2 xs0
      = k0_pay2 xs0 (View.ld x0 (Rect.unit (s := S1x512x64x64) (k0_off1 i) S1x512x32x64.size (k0_off1_inb i))) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_run_names
  rw [View.canon_unit_zero zeros4]
  simp only [View.readAt_eq_ld, harg2.read_unread, harg6.read_unread, View.ld_unit_zero (S := S512x1) zeros2]

/-- The column the body stores into the scratch is the excitation of the column of per-channel sums of
    the x block, applied to the two weight blocks: the two terms unfold to the same operations. -/
theorem gate_payload (v14 : Vec F S1x512x64x64 .f32) (v21 v29 : Vec F S512x32 .f32) :
    k0_pay1 v14 v21 v29
      = shapeCast Cert.SE.SCol (Cert.SE.excite
          (shapeCast Cert.SE.SCol (shapeCast (⟨3, ![512, 1, 1]⟩ : Shape)
            (multiReduction .add [1, 2] Cert.SE.SChan (shapeCast Cert.SE.SMap v14 (by decide)) 0x00000000#32 (by decide) (.inl rfl) rfl)
            (by decide)) (by decide))
          v21 v29) (by decide) := rfl

end Pieces

/-! ## The two payloads read at an index, over the extended reals -/

section Pure

/-- The column of per-channel sums the kernel forms from one batch element's block. -/
def sumCol (v14 : Vec Ideal S1x512x64x64 .f32) : FVec Ideal Cert.SE.SCol .f32 :=
  shapeCast Cert.SE.SCol (shapeCast (⟨3, ![512, 1, 1]⟩ : Shape)
    (multiReduction .add [1, 2] Cert.SE.SChan (shapeCast Cert.SE.SMap v14 (by decide)) 0x00000000#32 (by decide) (.inl rfl) rfl)
    (by decide)) (by decide)

/-- Entry p of that column is the sum of the block over the 64 x 64 positions of channel p. -/
theorem sumCol_apply (v14 : Vec Ideal S1x512x64x64 .f32) (p : Fin 512) (q : Fin 1) :
    sumCol v14 (ix2 p q) = ∑ h : Fin 64, ∑ w : Fin 64, v14 (ix4 (0 : Fin 1) p h w) := by
  unfold sumCol
  refine (shapeCast_apply _ _ (ix2 p q) (ix3 p (0 : Fin 1) (0 : Fin 1)) ?_).trans ?_
  · rw [Shape.rowMajor_val_three, Shape.rowMajor_val_two]
    show (p.val * 1 + 0) * 1 + 0 = p.val * 1 + q.val
    have := q.isLt; omega
  refine (shapeCast_apply _ _ (ix3 p (0 : Fin 1) (0 : Fin 1)) (ix1 p) ?_).trans ?_
  · rw [Shape.rowMajor_val_one, Shape.rowMajor_val_three]
    show p.val = (p.val * 1 + 0) * 1 + 0
    omega
  refine (Cert.SE.reduce_map _ p).trans ?_
  refine Finset.sum_congr rfl fun h _ => Finset.sum_congr rfl fun w _ => ?_
  refine shapeCast_apply _ _ (ix3 p h w) (ix4 (0 : Fin 1) p h w) ?_
  rw [Shape.rowMajor_val_four, Shape.rowMajor_val_three]
  show ((0 * 512 + p.val) * 64 + h.val) * 64 + w.val = (p.val * 64 + h.val) * 64 + w.val
  omega

/-- Entry (p, h, w) of the product the body stores is the slab entry there times the column entry of
    channel p: the column is broadcast along the rows and the lanes. -/
theorem scaled_slab_apply (col : Vec Ideal S512x1 .f32) (slab : Vec Ideal S1x512x32x64 .f32) (j0 : Fin 1) (p : Fin 512) (h : Fin 32) (w : Fin 64) :
    k0_pay2 col slab (ix4 j0 p h w) = slab (ix4 j0 p h w) * col (ix2 p (0 : Fin 1)) := by
  unfold k0_pay2
  refine (shapeCast_apply _ _ (ix4 j0 p h w) (ix3 p h w) ?_).trans ?_
  · rw [Shape.rowMajor_val_three, Shape.rowMajor_val_four]
    show (p.val * 32 + h.val) * 64 + w.val = ((j0.val * 512 + p.val) * 32 + h.val) * 64 + w.val
    have := j0.isLt; omega
  refine (mulf_apply _ _ (ix3 p h w)).trans ?_
  refine congrArg₂ (· * ·) ?_ ?_
  · refine shapeCast_apply _ _ (ix3 p h w) (ix4 j0 p h w) ?_
    rw [Shape.rowMajor_val_four, Shape.rowMajor_val_three]
    show ((j0.val * 512 + p.val) * 32 + h.val) * 64 + w.val = (p.val * 32 + h.val) * 64 + w.val
    have := j0.isLt; omega
  · refine (broadcastTo_apply _ _ (ix3 p h w) (ix3 p (0 : Fin 1) (0 : Fin 1)) ?_).trans ?_
    · intro a
      match a with
      | ⟨0, _⟩ => rfl
      | ⟨1, _⟩ => rfl
      | ⟨2, _⟩ => rfl
    refine shapeCast_apply _ _ (ix3 p (0 : Fin 1) (0 : Fin 1)) (ix2 p (0 : Fin 1)) ?_
    rw [Shape.rowMajor_val_two, Shape.rowMajor_val_three]
    show p.val * 1 + 0 = (p.val * 1 + 0) * 1 + 0
    omega

end Pure

variable (m : (ℓ : Loc nD τ sig) → Buf (Elt Ideal) ℓ) (ρ : Dev nD → PrngReg)

/-- The argument arrays and the result array after the run, at their literal types. -/
abbrev argX (c : Dev nD) : FVec Ideal S32x512x64x64 .f32 := m ((c : Thread nD τ).loc main_arg0)
abbrev argW1 (c : Dev nD) : FVec Ideal S32x512 .f32 := m ((c : Thread nD τ).loc main_arg1)
abbrev argW2 (c : Dev nD) : FVec Ideal S512x32 .f32 := m ((c : Thread nD τ).loc main_arg2)
abbrev result (c : Dev nD) : FVec Ideal S32x512x64x64 .f32 := (dats m 0 c).arrAt 3 cfg0.N

/-! ## The input blocks at a point, and the gate column the scratch carries -/

section Blocks

/-- The printed index maps over the 64 grid points t = 2 b + k. -/
theorem block_indices : ∀ t : Fin cfg0.N,
    win0_0.index t (0 : Fin 4) = t.val / 2 ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val / 2 ∧ win0_3.index t (1 : Fin 4) = 0
    ∧ win0_3.index t (2 : Fin 4) = t.val % 2 ∧ win0_3.index t (3 : Fin 4) = 0
    ∧ (grid0.coords t (1 : Fin 2)).val = t.val % 2 :=
  (by decide +kernel : ∀ t : Fin grid0.N, _)

/-- The gate column of batch element b. -/
def gateCol (X : FVec Ideal S32x512x64x64 .f32) (W1 : FVec Ideal S32x512 .f32) (W2 : FVec Ideal S512x32 .f32) (b : Fin 32) :
    FVec Ideal Cert.SE.SCol .f32 :=
  Cert.SE.excite (F := Ideal) (Cert.SE.squeezeCol X b) (transpose Cert.SE.SW [1, 0] W1 (by decide)) W2

/-- If the block reads batch element b of x, its column of sums is the squeeze column of b. -/
theorem sumCol_eq (v14 : Vec Ideal S1x512x64x64 .f32) (X : FVec Ideal S32x512x64x64 .f32) (b : Fin 32)
    (hx : ∀ (p : Fin 512) (h w : Fin 64), v14 (ix4 (0 : Fin 1) p h w) = X (ix4 b p h w)) :
    sumCol v14 = Cert.SE.squeezeCol X b := by
  funext j
  obtain ⟨p, q, rfl⟩ : ∃ (p : Fin 512) (q : Fin 1), j = ix2 p q := ⟨j 0, j 1, eq_ix2 j⟩
  rw [sumCol_apply]
  show _ = ∑ h : Fin 64, ∑ w : Fin 64, X (ix4 b p h w)
  exact Finset.sum_congr rfl fun h _ => Finset.sum_congr rfl fun w _ => hx p h w

/-- So on the block of batch element b, the transposed W1 and W2, the stored column is the gate column of b. -/
theorem gate_payload_eq (v14 : Vec Ideal S1x512x64x64 .f32) (v21 v29 : Vec Ideal S512x32 .f32)
    (X : FVec Ideal S32x512x64x64 .f32) (W1 : FVec Ideal S32x512 .f32) (W2 : FVec Ideal S512x32 .f32) (b : Fin 32)
    (hx : ∀ (p : Fin 512) (h w : Fin 64), v14 (ix4 (0 : Fin 1) p h w) = X (ix4 b p h w))
    (h1 : v21 = transpose Cert.SE.SW [1, 0] W1 (by decide)) (h2 : v29 = W2) :
    k0_pay1 v14 v21 v29 = gateCol X W1 W2 b := by
  rw [gate_payload, shapeCast_self]
  subst h1 h2
  unfold gateCol
  exact congrArg (fun a => Cert.SE.excite (F := Ideal) a _ _) (sumCol_eq v14 X b hx)

/-- The block of x at point t is batch element t / 2. -/
theorem x_block_apply (c : Dev nD) (t : Fin cfg0.N) (b : Fin 32) (hb : b.val = t.val / 2) (j0 : Fin 1) (p : Fin 512) (h w : Fin 64) :
    (iblk m c 0 t : Vec Ideal S1x512x64x64 .f32) (ix4 j0 p h w) = argX m c (ix4 b p h w) := by
  obtain ⟨e0, e1, e2, e3, -⟩ := block_indices t
  have hidx : ((cfg0.win 0).blk t).view.emb (ix4 j0 p h w) = ix4 b p h w := by
    funext a; apply Fin.ext
    match a with
    | ⟨0, _⟩ => show win0_0.index t (0 : Fin 4) * 1 + 1 * j0.val = b.val; have := j0.isLt; omega
    | ⟨1, _⟩ => show win0_0.index t (1 : Fin 4) * 512 + 1 * p.val = p.val; omega
    | ⟨2, _⟩ => show win0_0.index t (2 : Fin 4) * 64 + 1 * h.val = h.val; omega
    | ⟨3, _⟩ => show win0_0.index t (3 : Fin 4) * 64 + 1 * w.val = w.val; omega
  show V m c main_arg0 (((cfg0.win 0).blk t).view.emb (ix4 j0 p h w)) = _
  rw [hidx, V_main_arg0]

/-- The host transposes W1 before the region. -/
theorem w1_transposed (c : Dev nD) :
    (V m c main_v0 : S512x32.Idx → EReal) = transpose Cert.SE.SW [1, 0] (argW1 m c) (by decide) := by
  dsimp only [Gen.V, Gen.hostOps0]; after_results

/-- Window 1 is the whole transposed W1 at every point: its block index is always zero. -/
theorem w1_block (c : Dev nD) (t : Fin cfg0.N) :
    (iblk m c 1 t : Vec Ideal S512x32 .f32) = transpose Cert.SE.SW [1, 0] (argW1 m c) (by decide) := by
  obtain ⟨-, -, -, -, e0, e1, -⟩ := block_indices t
  funext y
  have hidx : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 32 + 1 * (y 1).val = (y 1).val; omega
  show V m c main_v0 (((cfg0.win 1).blk t).view.emb y) = _
  rw [hidx, w1_transposed]

/-- Window 2 is the whole W2 at every point: its block index is always zero. -/
theorem w2_block (c : Dev nD) (t : Fin cfg0.N) :
    (iblk m c 2 t : Vec Ideal S512x32 .f32) = argW2 m c := by
  obtain ⟨-, -, -, -, -, -, e0, e1, -⟩ := block_indices t
  funext y
  have hidx : ((cfg0.win 2).blk t).view.emb y = y := by
    funext a; apply Fin.ext
    match a with
    | ⟨0, _⟩ => show win0_2.index t (0 : Fin 2) * 512 + 1 * (y 0).val = (y 0).val; omega
    | ⟨1, _⟩ => show win0_2.index t (1 : Fin 2) * 32 + 1 * (y 1).val = (y 1).val; omega
  show V m c main_arg2 (((cfg0.win 2).blk t).view.emb y) = _
  rw [hidx, V_main_arg2]

/-- The gate column computed from the blocks at point t is that of batch element t / 2. -/
theorem gate_at_point (c : Dev nD) (t : Fin cfg0.N) (b : Fin 32) (hb : b.val = t.val / 2) :
    k0_pay1 (iblk m c 0 t) (iblk m c 1 t) (iblk m c 2 t) = gateCol (argX m c) (argW1 m c) (argW2 m c) b :=
  gate_payload_eq (iblk m c 0 t) (iblk m c 1 t) (iblk m c 2 t) (argX m c) (argW1 m c) (argW2 m c) b
    (fun p h w => x_block_apply m c t b hb (0 : Fin 1) p h w) (w1_block m c t) (w2_block m c t)

/-- After an even point the scratch holds the gate column of its batch element. -/
theorem carried_gate (c : Dev nD) (t : Fin cfg0.N) (h0 : t.val % 2 = 0) (b : Fin 32) (hb : b.val = t.val / 2) :
    (outsAt0 m c t.val t.isLt).2 = gateCol (argX m c) (argW1 m c) (argW2 m c) b := by
  rw [outsAt0_A m c t h0]
  dsimp only
  rw [scratch_even]
  exact gate_at_point m c t b hb

end Blocks

/-! ## From the written blocks to the whole array -/

section Assembly

/-- The half slab the body loads at row offset 32 k of the x block. -/
theorem half_slab_apply (x0 : Vec Ideal S1x512x64x64 .f32) (i : grid0.Coords) (k : Fin 2) (hk : (i 1).val = k.val)
    (j0 : Fin 1) (p : Fin 512) (h : Fin 32) (w : Fin 64) :
    View.ld x0 (Rect.unit (s := S1x512x64x64) (k0_off1 i) S1x512x32x64.size (k0_off1_inb i)) (ix4 j0 p h w)
      = x0 (ix4 j0 p (⟨32 * k.val + h.val, by omega⟩ : Fin 64) w) := by
  show x0 ((Rect.unit (s := S1x512x64x64) (k0_off1 i) S1x512x32x64.size (k0_off1_inb i)).emb (ix4 j0 p h w)) = _
  refine congrArg x0 ?_
  have e0 : k0_off1 i (0 : Fin 4) = 0 := congrFun (k0_off1_eq i) 0
  have e1 : k0_off1 i (1 : Fin 4) = 0 := congrFun (k0_off1_eq i) 1
  have e2 : k0_off1 i (2 : Fin 4) = 32 * (i 1).val := congrFun (k0_off1_eq i) 2
  have e3 : k0_off1 i (3 : Fin 4) = 0 := congrFun (k0_off1_eq i) 3
  funext a; apply Fin.ext
  match a with
  | ⟨0, _⟩ => show k0_off1 i (0 : Fin 4) + 1 * j0.val = j0.val; omega
  | ⟨1, _⟩ => show k0_off1 i (1 : Fin 4) + 1 * p.val = p.val; omega
  | ⟨2, _⟩ => show k0_off1 i (2 : Fin 4) + 1 * h.val = 32 * k.val + h.val; omega
  | ⟨3, _⟩ => show k0_off1 i (3 : Fin 4) + 1 * w.val = w.val; omega

/-- One entry of a written block: x times the gate. -/
theorem scaled_entry (X : FVec Ideal S32x512x64x64 .f32) (W1 : FVec Ideal S32x512 .f32) (W2 : FVec Ideal S512x32 .f32)
    (col : Vec Ideal S512x1 .f32) (slab : Vec Ideal S1x512x32x64 .f32) (b : Fin 32) (r : Fin 64)
    (j0 : Fin 1) (p : Fin 512) (h : Fin 32) (w : Fin 64)
    (hcol : col = gateCol X W1 W2 b) (hslab : slab (ix4 j0 p h w) = X (ix4 b p r w)) :
    k0_pay2 col slab (ix4 j0 p h w) = Cert.SE.G X W1 W2 (ix4 b p r w) := by
  rw [scaled_slab_apply, hslab, hcol]
  rfl

/-- What point t writes back is block t of the scaled array. -/
theorem written_block (c : Dev nD) (t : Fin cfg0.N) :
    (dats m 0 c).flushed 3 t
      = ((cfg0.win 3).blk t).view.read (Elt Ideal) (Cert.SE.G (argX m c) (argW1 m c) (argW2 m c)) := by
  have hN : t.val < 64 := lt_of_lt_of_eq t.isLt (show cfg0.N = 64 from N_0)
  obtain ⟨-, -, -, -, -, -, -, -, e0, e1, e2, e3, ek⟩ := block_indices t
  have hemb : ∀ (j0 : Fin 1) (p : Fin 512) (h : Fin 32) (w : Fin 64),
      ((cfg0.win 3).blk t).view.emb (ix4 j0 p h w)
        = ix4 (⟨t.val / 2, by omega⟩ : Fin 32) p (⟨32 * (t.val % 2) + h.val, by omega⟩ : Fin 64) w := by
    intro j0 p h w
    funext a; apply Fin.ext
    match a with
    | ⟨0, _⟩ => show win0_3.index t (0 : Fin 4) * 1 + 1 * j0.val = t.val / 2; have := j0.isLt; omega
    | ⟨1, _⟩ => show win0_3.index t (1 : Fin 4) * 512 + 1 * p.val = p.val; omega
    | ⟨2, _⟩ => show win0_3.index t (2 : Fin 4) * 32 + 1 * h.val = 32 * (t.val % 2) + h.val; omega
    | ⟨3, _⟩ => show win0_3.index t (3 : Fin 4) * 64 + 1 * w.val = w.val; omega
  have hslab : ∀ (j0 : Fin 1) (p : Fin 512) (h : Fin 32) (w : Fin 64),
      View.ld (iblk m c 0 t : Vec Ideal S1x512x64x64 .f32)
          (Rect.unit (s := S1x512x64x64) (k0_off1 (grid0.coords t)) S1x512x32x64.size (k0_off1_inb (grid0.coords t))) (ix4 j0 p h w)
        = argX m c (ix4 (⟨t.val / 2, by omega⟩ : Fin 32) p (⟨32 * (t.val % 2) + h.val, by omega⟩ : Fin 64) w) := by
    intro j0 p h w
    refine (half_slab_apply (iblk m c 0 t) (grid0.coords t) (⟨t.val % 2, by omega⟩ : Fin 2) ek j0 p h w).trans ?_
    exact x_block_apply m c t (⟨t.val / 2, by omega⟩ : Fin 32) rfl j0 p _ w
  by_cases h0 : t.val % 2 = 0
  · rw [flushed3_A m c t h0, block_even]
    funext j
    obtain ⟨j0, p, h, w, rfl⟩ : ∃ (j0 : Fin 1) (p : Fin 512) (h : Fin 32) (w : Fin 64), j = ix4 j0 p h w :=
      ⟨j 0, j 1, j 2, j 3, eq_ix4 j⟩
    show k0_pay2 (k0_pay1 (iblk m c 0 t) (iblk m c 1 t) (iblk m c 2 t))
        (View.ld (iblk m c 0 t : Vec Ideal S1x512x64x64 .f32)
          (Rect.unit (s := S1x512x64x64) (k0_off1 (grid0.coords t)) S1x512x32x64.size (k0_off1_inb (grid0.coords t))))
        (ix4 j0 p h w)
      = Cert.SE.G (argX m c) (argW1 m c) (argW2 m c) (((cfg0.win 3).blk t).view.emb (ix4 j0 p h w))
    rw [hemb]
    exact scaled_entry (argX m c) (argW1 m c) (argW2 m c) _ _ _ _ j0 p h w
      (gate_at_point m c t (⟨t.val / 2, by omega⟩ : Fin 32) rfl) (hslab j0 p h w)
  · rw [flushed3_B m c t h0, block_odd]
    funext j
    obtain ⟨j0, p, h, w, rfl⟩ : ∃ (j0 : Fin 1) (p : Fin 512) (h : Fin 32) (w : Fin 64), j = ix4 j0 p h w :=
      ⟨j 0, j 1, j 2, j 3, eq_ix4 j⟩
    show k0_pay2 (outsAt0 m c (t.val - 1) (Nat.lt_of_le_of_lt (Nat.sub_le _ _) t.isLt)).2
        (View.ld (iblk m c 0 t : Vec Ideal S1x512x64x64 .f32)
          (Rect.unit (s := S1x512x64x64) (k0_off1 (grid0.coords t)) S1x512x32x64.size (k0_off1_inb (grid0.coords t))))
        (ix4 j0 p h w)
      = Cert.SE.G (argX m c) (argW1 m c) (argW2 m c) (((cfg0.win 3).blk t).view.emb (ix4 j0 p h w))
    rw [hemb]
    exact scaled_entry (argX m c) (argW1 m c) (argW2 m c) _ _ _ _ j0 p h w
      (carried_gate m c (⟨t.val - 1, Nat.lt_of_le_of_lt (Nat.sub_le _ _) t.isLt⟩ : Fin cfg0.N)
        (by show (t.val - 1) % 2 = 0; omega) (⟨t.val / 2, by omega⟩ : Fin 32) (by show t.val / 2 = (t.val - 1) / 2; omega))
      (hslab j0 p h w)

/-- An index of the result lies in point t's block iff each coordinate lies in the block's range on its axis. -/
theorem mem_block (t : Fin cfg0.N) (i : S32x512x64x64.Idx) :
    i ∈ ((cfg0.win 3).blk t).view.set
      ↔ ∀ a : Fin 4, win0_3.index t a * S1x512x32x64.size a ≤ (i a).val
          ∧ (i a).val < win0_3.index t a * S1x512x32x64.size a + S1x512x32x64.size a := by
  show i ∈ ((View.whole main_v1).slice (win0_3.rect t)).set ↔ _
  rw [View.set_slice_whole, Rect.mem_set_unit]
  exact Iff.rfl

/-- Index (b, c', h, w) lies in the block of point 2 b + h / 32. -/
theorem blocks_cover (i : S32x512x64x64.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 64 := (i 2).isLt
  have hi3 : (i 3).val < 64 := (i 3).isLt
  have hN : cfg0.N = 64 := N_0
  let t : Fin cfg0.N := ⟨2 * (i 0).val + (i 2).val / 32, by omega⟩
  have ht : t.val = 2 * (i 0).val + (i 2).val / 32 := rfl
  obtain ⟨-, -, -, -, -, -, -, -, e0, e1, e2, e3, -⟩ := block_indices t
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 512 ≤ (i 1).val ∧ (i 1).val < win0_3.index t (1 : Fin 4) * 512 + 512; omega
  | ⟨2, _⟩ => show win0_3.index t (2 : Fin 4) * 32 ≤ (i 2).val ∧ (i 2).val < win0_3.index t (2 : Fin 4) * 32 + 32; omega
  | ⟨3, _⟩ => show win0_3.index t (3 : Fin 4) * 64 ≤ (i 3).val ∧ (i 3).val < win0_3.index t (3 : Fin 4) * 64 + 64; omega

end Assembly

/-- The result array is x scaled by the gates. -/
theorem final (c : Dev nD) : result m c = Cert.SE.G (argX m c) (argW1 m c) (argW2 m c) :=
  (dats m 0 c).arrAt_eq_of_cover 3 (Cert.SE.G (argX m c) (argW1 m c) (argW2 m c)) (fun t _ => written_block m c t) blocks_cover

/-- The kernel's run ends with the result array at that function of the arguments, the arguments unchanged. -/
theorem run : θ_run defs (onTc (τ := τ) (main (F := Ideal))) ⟨m, fun _ => 0, ρ⟩ fun r => ∀ c : Dev nD,
      r.2.mem ((c : Thread nD τ).loc main_v1) = Cert.SE.G (argX m c) (argW1 m c) (argW2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.HandValue

end
-- ==== Proof.RefPool.lean ====
/-
  The reference's first region (the pooled sums and the gate), at the contents V its region is entered with:
  the proof data of its pipeline, the obligation of its body at every grid point, and what its odd points leave
  in the gate window.  A grid point is (b, k) with k in {0, 1}; the body keeps the running lane sums of batch
  element b in a scratch column: at k = 0 it stores zero and adds the first tile's lane sums, at k = 1 it adds
  the second tile's and stores the gate of the accumulated column into the output window, which is written
  back there and idle at k = 0.
-/
import proofs.«159505_g2000407024704625_pallasbulk_269_7_alg».proof.Proof.Gen.ReferenceIdeal.Launch
import proofs.«159505_g2000407024704625_pallasbulk_269_7_alg».proof.Proof.Gen.ReferenceIdeal.Skeleton
import proofs.«159505_g2000407024704625_pallasbulk_269_7_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions of the body, in closed form over the grid -/

/-- The body's first test (is k zero), as its scalar chain computes it from the grid coordinates. -/
abbrev isFirst (i : grid0.Coords) : Prop :=
  (Scalar.cmpi .ne (Scalar.extui (Scalar.cmpi .eq (BitVec.ofNat 32 (i 1).val) 0#32)) 0#32) = 1#1
/-- It holds exactly at the even points. -/
theorem isFirst_iff : ∀ t : Fin cfg0.N, isFirst (grid0.coords t) ↔ t.val % 2 = 0 :=
  (by decide +kernel : ∀ t : Fin grid0.N, isFirst (grid0.coords t) ↔ t.val % 2 = 0)

/-- The body's second test (is k one). -/
abbrev isLast (i : grid0.Coords) : Prop := k0_cond2 i = 1#1
/-- It holds exactly at the odd points. -/
theorem isLast_iff : ∀ t : Fin cfg0.N, isLast (grid0.coords t) ↔ t.val % 2 = 1 :=
  (by decide +kernel : ∀ t : Fin grid0.N, isLast (grid0.coords t) ↔ t.val % 2 = 1)

/-! ## The body on any whole staging memrefs, in its two cases -/

set_option maxHeartbeats 1000000 in
/-- At a point with k = 0: the inputs' buffers at their contents, the gate buffer at contents the body never
    touches, the scratch column at anything.  The body stores the zero column, reads it back, adds the tile's
    lane sums and stores the result; the scratch ends with those two stores written, the later covering. The
    piece list is the witness of the run. -/
noncomputable def runFirst (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : isFirst i) (hl : ¬isLast i)
    (x0 : Vec F S1x512x2048 .f32) (x1 : Vec F S512x32 .f32) (x2 : Vec F S512x32 .f32) :
    { LS : List (View.Piece (Elt F) S512x1 .f32) //
      ∀ (xi : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc0__kernel_body i arg2 harg2 arg3 harg3 arg4 harg4 arg5 harg5 arg6 harg6) K } := by
  refine ⟨?_, fun xi E K => ?run⟩
  case run =>
    simp only [cc0__kernel_body_eq_skeleton]; unfold cc0__kernel_body_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hz | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- At a point with k = 1: the inputs' buffers at their contents, the gate buffer at anything, the scratch column
    at the contents xs the point before left.  The body adds the tile's lane sums to xs, stores the result, reads
    it back and stores its gate into the gate buffer.  Each buffer ends with one covering store written. -/
noncomputable def runLast (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : ¬isFirst i) (hl : isLast i)
    (x0 : Vec F S1x512x2048 .f32) (x1 : Vec F S512x32 .f32) (x2 : Vec F S512x32 .f32) (xs : Vec F S512x1 .f32) :
    Σ' (LO : List (View.Piece (Elt F) S1x512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__kernel_body i arg2 harg2 arg3 harg3 arg4 harg4 arg5 harg5 arg6 harg6) K } := by
  refine ⟨?_, ?_, fun E K => ?run⟩
  case run =>
    simp only [cc0__kernel_body_eq_skeleton]; unfold cc0__kernel_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hz | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## The scratch column and the gate buffer as views -/

/-- The scratch column the body keeps between the two points of a batch element. -/
abbrev scM : Memref sig .tc .vmem S512x1 .f32 := Memref.whole cc0_scratch0
/-- The view through which the scratch column's contents are stated. -/
abbrev VS : View sig .tc .vmem S512x1 .f32 := scM.view
/-- One staging buffer of the gate window, through which its contents are stated (which one does not matter). -/
abbrev VO : View sig .tc .vmem S1x512x1 .f32 := (Memref.whole cc0_stg3_0 : Memref sig .tc .vmem S1x512x1 .f32).view

/-! ## What the two cases leave, as the pieces their runs found -/

/-- The two stores of the k = 0 case cover the scratch column. -/
theorem coverFirst (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : isFirst i) (hl : ¬isLast i)
    (x0 : Vec F S1x512x2048 .f32) (x1 : Vec F S512x32 .f32) (x2 : Vec F S512x32 .f32) (y : S512x1.Idx) :
    ∃ pc ∈ (runFirst c i arg2 harg2 arg3 harg3 arg4 harg4 arg5 harg5 arg6 harg6 hz hl x0 x1 x2).1, y ∈ pc.1.set :=
  View.cover_of_tiledL (runFirst c i arg2 harg2 arg3 harg3 arg4 harg4 arg5 harg5 arg6 harg6 hz hl x0 x1 x2).1 S512x1.size (by sl_kernel_rfl) y

/-- What the k = 0 case leaves in the scratch column: its pieces read back. -/
def scrFirst (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : isFirst i) (hl : ¬isLast i)
    (x0 : Vec F S1x512x2048 .f32) (x1 : Vec F S512x32 .f32) (x2 : Vec F S512x32 .f32) : Vec F S512x1 .f32 :=
  VS.read (Elt F) (VS.writes (Elt F) VS.junk (runFirst c i arg2 harg2 arg3 harg3 arg4 harg4 arg5 harg5 arg6 harg6 hz hl x0 x1 x2).1)

/-- The one store of the k = 1 case into the scratch column covers it. -/
theorem coverLastS (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : ¬isFirst i) (hl : isLast i)
    (x0 : Vec F S1x512x2048 .f32) (x1 : Vec F S512x32 .f32) (x2 : Vec F S512x32 .f32) (xs : Vec F S512x1 .f32) (y : S512x1.Idx) :
    ∃ pc ∈ (runLast c i arg2 harg2 arg3 harg3 arg4 harg4 arg5 harg5 arg6 harg6 hz hl x0 x1 x2 xs).2.1, y ∈ pc.1.set :=
  View.cover_of_tiledL (runLast c i arg2 harg2 arg3 harg3 arg4 harg4 arg5 harg5 arg6 harg6 hz hl x0 x1 x2 xs).2.1 S512x1.size (by sl_kernel_rfl) y

/-- The one store of the k = 1 case into the gate buffer covers it. -/
theorem coverLastO (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : ¬isFirst i) (hl : isLast i)
    (x0 : Vec F S1x512x2048 .f32) (x1 : Vec F S512x32 .f32) (x2 : Vec F S512x32 .f32) (xs : Vec F S512x1 .f32) (y : S1x512x1.Idx) :
    ∃ pc ∈ (runLast c i arg2 harg2 arg3 harg3 arg4 harg4 arg5 harg5 arg6 harg6 hz hl x0 x1 x2 xs).1, y ∈ pc.1.set :=
  View.cover_of_tiledL (runLast c i arg2 harg2 arg3 harg3 arg4 harg4 arg5 harg5 arg6 harg6 hz hl x0 x1 x2 xs).1 S1x512x1.size (by sl_kernel_rfl) y

/-- What the k = 1 case leaves in the scratch column. -/
def scrLast (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : ¬isFirst i) (hl : isLast i)
    (x0 : Vec F S1x512x2048 .f32) (x1 : Vec F S512x32 .f32) (x2 : Vec F S512x32 .f32) (xs : Vec F S512x1 .f32) : Vec F S512x1 .f32 :=
  VS.read (Elt F) (VS.writes (Elt F) VS.junk (runLast c i arg2 harg2 arg3 harg3 arg4 harg4 arg5 harg5 arg6 harg6 hz hl x0 x1 x2 xs).2.1)

/-- What the k = 1 case leaves in the gate buffer. -/
def gateLast (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : ¬isFirst i) (hl : isLast i)
    (x0 : Vec F S1x512x2048 .f32) (x1 : Vec F S512x32 .f32) (x2 : Vec F S512x32 .f32) (xs : Vec F S512x1 .f32) : Vec F S1x512x1 .f32 :=
  VO.read (Elt F) (VO.writes (Elt F) VO.junk (runLast c i arg2 harg2 arg3 harg3 arg4 harg4 arg5 harg5 arg6 harg6 hz hl x0 x1 x2 xs).1)

theorem off2 : (![0, 0] : Fin 2 → Nat) = fun _ => 0 := funext fun a => by fin_cases a <;> rfl
theorem off3 : (![0, 0, 0] : Fin 3 → Nat) = fun _ => 0 := funext fun a => by fin_cases a <;> rfl

/-- The k = 0 case leaves the zero column plus the tile's lane sums: the later store covers, and the column it
    read back is what the earlier store wrote. -/
theorem scrFirst_eq (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : isFirst i) (hl : ¬isLast i)
    (x0 : Vec F S1x512x2048 .f32) (x1 : Vec F S512x32 .f32) (x2 : Vec F S512x32 .f32) :
    scrFirst c i arg2 harg2 arg3 harg3 arg4 harg4 arg5 harg5 arg6 harg6 hz hl x0 x1 x2 = k0_pay2 k0_pay1 x0 := by
  unfold scrFirst
  rw [View.read_writes_eq_canon _ _ _ (coverFirst c i arg2 harg2 arg3 harg3 arg4 harg4 arg5 harg5 arg6 harg6 hz hl x0 x1 x2)]
  unfold runFirst
  dsimp only
  sl_unfold_words
  rw [View.canon_cons_unit_zero (S := S512x1) off2, View.readCov_unit_zero (S := S512x1) _ off2]
  simp only [View.readAt_eq_ld, harg2.read_unread, View.ld_unit_zero (S := S1x512x2048) off3]

/-- The k = 1 case leaves in the gate buffer the gate of the column it accumulated: its one store covers, and the
    column it read back is what its store into the scratch wrote. -/
theorem gateLast_eq (c : Dev nD) (i : grid0.Coords)
    (arg2 : Memref sig .tc .vmem S1x512x2048 .f32) (harg2 : arg2.IsWhole)
    (arg3 : Memref sig .tc .vmem S512x32 .f32) (harg3 : arg3.IsWhole)
    (arg4 : Memref sig .tc .vmem S512x32 .f32) (harg4 : arg4.IsWhole)
    (arg5 : Memref sig .tc .vmem S1x512x1 .f32) (harg5 : arg5.IsWhole)
    (arg6 : Memref sig .tc .vmem S512x1 .f32) (harg6 : arg6.IsWhole)
    (hz : ¬isFirst i) (hl : isLast i)
    (x0 : Vec F S1x512x2048 .f32) (x1 : Vec F S512x32 .f32) (x2 : Vec F S512x32 .f32) (xs : Vec F S512x1 .f32) :
    gateLast c i arg2 harg2 arg3 harg3 arg4 harg4 arg5 harg5 arg6 harg6 hz hl x0 x1 x2 xs = k0_pay3 (k0_pay2 xs x0) x1 x2 := by
  unfold gateLast
  rw [View.read_writes_eq_canon _ _ _ (coverLastO c i arg2 harg2 arg3 harg3 arg4 harg4 arg5 harg5 arg6 harg6 hz hl x0 x1 x2 xs)]
  unfold runLast
  dsimp only
  sl_unfold_words
  rw [View.canon_unit_zero (S := S1x512x1) off3]
  simp only [View.readCov_unit_zero (S := S512x1) _ off2, View.readAt_eq_ld, harg2.read_unread, harg3.read_unread,
    harg4.read_unread, harg6.read_unread, View.ld_unit_zero (S := S1x512x2048) off3, View.ld_unit_zero (S := S512x32) off2,
    View.ld_unit_zero (S := S512x1) off2]

/-! ## The staging memrefs at a point, and the inputs' blocks in them -/

/-- Each window's current staging memref at point t, spelled as the pipeline passes it to the body, and its wholeness. -/
abbrev stgM0 (t : Fin cfg0.N) : Memref sig .tc .vmem S1x512x2048 .f32 := win0_0.stage (cfg0.slots t 0)
abbrev stgW0 (t : Fin cfg0.N) : (stgM0 t).IsWhole := hstage0_0 ((cfg0.slots t 0).cast nbuf0_0)
abbrev stgM1 (t : Fin cfg0.N) : Memref sig .tc .vmem S512x32 .f32 := win0_1.stage (cfg0.slots t 1)
abbrev stgW1 (t : Fin cfg0.N) : (stgM1 t).IsWhole := hstage0_1 ((cfg0.slots t 1).cast nbuf0_1)
abbrev stgM2 (t : Fin cfg0.N) : Memref sig .tc .vmem S512x32 .f32 := win0_2.stage (cfg0.slots t 2)
abbrev stgW2 (t : Fin cfg0.N) : (stgM2 t).IsWhole := hstage0_2 ((cfg0.slots t 2).cast nbuf0_2)
abbrev stgM3 (t : Fin cfg0.N) : Memref sig .tc .vmem S1x512x1 .f32 := win0_3.stage (cfg0.slots t 3)
abbrev stgW3 (t : Fin cfg0.N) : (stgM3 t).IsWhole := hstage0_3 ((cfg0.slots t 3).cast nbuf0_3)

/-- The tile window's buffer holds its block whenever the body runs, for any proof data over V that keeps it:
    an input never idle and never cut holds what a fetch puts there, fetched at this point or not. -/
theorem before_tile {c : Dev nD} (D : Dat τ (Elt F) Unit ℕ (UR sig nD τ) ℕ cfg0 c)
    (hA : D.A 0 = V c (Pipeline.arrRef spec0 0)) (hkeep : ∀ t, D.after 0 t = blk V c 0 t) (t : Fin cfg0.N) (d) :
    D.before 0 t d = blk V c 0 t := by
  rw [D.before_in_eq_fetched 0 rfl (fun _ => rfl) (fun _ _ _ => rfl)
    (fun s => by rw [hkeep]; unfold Dat.blockOf blk; rw [hA]) t d]
  unfold Dat.fetched Dat.blockOf blk; rw [hA]; rfl
/-- The same for the first weight window. -/
theorem before_w1 {c : Dev nD} (D : Dat τ (Elt F) Unit ℕ (UR sig nD τ) ℕ cfg0 c)
    (hA : D.A 1 = V c (Pipeline.arrRef spec0 1)) (hkeep : ∀ t, D.after 1 t = blk V c 1 t) (t : Fin cfg0.N) (d) :
    D.before 1 t d = blk V c 1 t := by
  rw [D.before_in_eq_fetched 1 rfl (fun _ => rfl) (fun _ _ _ => rfl)
    (fun s => by rw [hkeep]; unfold Dat.blockOf blk; rw [hA]) t d]
  unfold Dat.fetched Dat.blockOf blk; rw [hA]; rfl
/-- The same for the second weight window. -/
theorem before_w2 {c : Dev nD} (D : Dat τ (Elt F) Unit ℕ (UR sig nD τ) ℕ cfg0 c)
    (hA : D.A 2 = V c (Pipeline.arrRef spec0 2)) (hkeep : ∀ t, D.after 2 t = blk V c 2 t) (t : Fin cfg0.N) (d) :
    D.before 2 t d = blk V c 2 t := by
  rw [D.before_in_eq_fetched 2 rfl (fun _ => rfl) (fun _ _ _ => rfl)
    (fun s => by rw [hkeep]; unfold Dat.blockOf blk; rw [hA]) t d]
  unfold Dat.fetched Dat.blockOf blk; rw [hA]; rfl

/-! ## Where the gate window is idle -/

/-- At an even point the body stores nothing into the gate window, and the configuration says so. -/
theorem gate_idle : ∀ t : Fin cfg0.N, t.val % 2 = 0 → cfg0.idle 3 (grid0.coords t) = true := by decide +kernel
/-- At an odd point it stores into it. -/
theorem gate_live : ∀ t : Fin cfg0.N, t.val % 2 = 1 → cfg0.idle 3 (grid0.coords t) = false := by decide +kernel
/-- An even point does not write the gate window back. -/
theorem gate_kept (t : Fin cfg0.N) (h : t.val % 2 = 0) : (cfg0.win 3).flush t = false :=
  Bool.eq_false_iff.mpr fun hf => by have := (flush0_3 t).mp hf; omega

/-! ## What the scratch column and the gate buffer hold after each point -/

/-- The point before t (t itself at the first point, where nothing asks). -/
abbrev pointBefore (t : Fin cfg0.N) : Fin cfg0.N := ⟨t.val - 1, Nat.lt_of_le_of_lt (Nat.sub_le _ _) t.isLt⟩

/-- The scratch column after an even point t: the k = 0 case at the point's memrefs and blocks. -/
def scrEven (c : Dev nD) (t : Fin cfg0.N) (h : t.val % 2 = 0) : Vec F S512x1 .f32 :=
  scrFirst c (grid0.coords t) (stgM0 t) (stgW0 t) (stgM1 t) (stgW1 t) (stgM2 t) (stgW2 t) (stgM3 t) (stgW3 t) scM (Memref.isWhole_whole _)
    ((isFirst_iff t).mpr h) (fun hl => by have := (isLast_iff t).mp hl; omega) (blk V c 0 t) (blk V c 1 t) (blk V c 2 t)

/-- The scratch column after an odd point t: the k = 1 case over what the even point before left. -/
def scrOdd (c : Dev nD) (t : Fin cfg0.N) (h : t.val % 2 = 1) : Vec F S512x1 .f32 :=
  scrLast c (grid0.coords t) (stgM0 t) (stgW0 t) (stgM1 t) (stgW1 t) (stgM2 t) (stgW2 t) (stgM3 t) (stgW3 t) scM (Memref.isWhole_whole _)
    (fun hf => by have := (isFirst_iff t).mp hf; omega) ((isLast_iff t).mpr h) (blk V c 0 t) (blk V c 1 t) (blk V c 2 t)
    (scrEven V c (pointBefore t) (by show (t.val - 1) % 2 = 0; omega))

/-- The gate buffer after an odd point t: the k = 1 case over what the even point before left in the scratch. -/
def gateOdd (c : Dev nD) (t : Fin cfg0.N) (h : t.val % 2 = 1) : Vec F S1x512x1 .f32 :=
  gateLast c (grid0.coords t) (stgM0 t) (stgW0 t) (stgM1 t) (stgW1 t) (stgM2 t) (stgW2 t) (stgM3 t) (stgW3 t) scM (Memref.isWhole_whole _)
    (fun hf => by have := (isFirst_iff t).mp hf; omega) ((isLast_iff t).mpr h) (blk V c 0 t) (blk V c 1 t) (blk V c 2 t)
    (scrEven V c (pointBefore t) (by show (t.val - 1) % 2 = 0; omega))

/-- After the body at point t: the gate buffer's contents (at an even point a placeholder nothing consults, the
    window being idle and not written back there) and the scratch column's. -/
def leftAt (c : Dev nD) (t : Fin cfg0.N) : Vec F S1x512x1 .f32 × Vec F S512x1 .f32 :=
  if h : t.val % 2 = 0 then (VO.read (Elt F) VO.junk, scrEven V c t h)
  else (gateOdd V c t (by omega), scrOdd V c t (by omega))

theorem leftAt_even (c : Dev nD) (t : Fin cfg0.N) (h : t.val % 2 = 0) :
    leftAt V c t = (VO.read (Elt F) VO.junk, scrEven V c t h) := by
  unfold leftAt; rw [dif_pos h]

theorem leftAt_odd (c : Dev nD) (t : Fin cfg0.N) (h : t.val % 2 = 1) :
    leftAt V c t = (gateOdd V c t h, scrOdd V c t h) := by
  unfold leftAt; rw [dif_neg (by omega)]

/-! ## The invariant between points -/

/-- The second region's staging buffers, each whole at some contents: scoped buffers this region never touches. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class's invariant with the scratch column as a memref owned at some contents. -/
theorem PhiA_eq (c : Dev nD) :
    (Pipeline.ΦA spec0 c : sProp 𝕄)
      = iprop(iprop((∃ d, owns (c : Thread nD τ) scM fullShare d) ∗ otherScoped c) ∗ (∃ r, prngReg c r)) := by
  unfold Pipeline.ΦA otherScoped; rw [scopedRest0_eq]; simp only [scM, owns_whole]; rfl

/-- The invariant before position n: before the first point the class's; afterwards the scratch column at what
    the point before left, the other scoped buffers at anything and the generator register at some state. -/
def PhiS (c : Dev nD) : (n : ℕ) → n ≤ cfg0.N → sProp 𝕄
  | 0, _ => Pipeline.ΦA spec0 c
  | n + 1, hn => iprop(iprop(owns (c : Thread nD τ) scM fullShare ((leftAt V c ⟨n, hn⟩).2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((leftAt V c ⟨n, hn⟩).2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM fullShare ((leftAt V c ⟨n - 1, by omega⟩).2) ∗ otherScoped c) ∗ (∃ r, prngReg c r)) := by
  cases n with
  | zero => exact absurd rfl hz
  | succ n => rfl

/-! ## The proof data -/

/-- The proof data of the pooling pipeline on core c. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (leftAt V c t).1
  Φ t := PhiS V c t.val (Nat.le_of_lt_succ t.isLt)
  q _ := fullShare
  owed _ := 0

theorem dat_A (c : Dev nD) (w : Fin cfg0.W) : (dat V c).A w = V c (Pipeline.arrRef spec0 w) := by
  dsimp only [dat]

theorem dat_q (c : Dev nD) (w : Fin cfg0.W) : (dat V c).q w = fullShare := by dsimp only [dat]

theorem dat_owed (c : Dev nD) (t : Fin (cfg0.N + 1)) : (dat V c).owed t = 0 := by dsimp only [dat]

theorem dat_recorded (c : Dev nD) (t : Fin (cfg0.N + 1)) : (dat V c).recorded t = Set.univ := rfl

theorem Phi_at (c : Dev nD) (t : Fin cfg0.N) : (dat V c).Φ t.castSucc = PhiS V c t.val (Nat.le_of_lt t.isLt) := by
  dsimp only [dat]; simp only [Fin.coe_castSucc]

theorem after_tile (c : Dev nD) (t : Fin cfg0.N) : (dat V c).after 0 t = blk V c 0 t := by dsimp only [dat]
theorem after_w1 (c : Dev nD) (t : Fin cfg0.N) : (dat V c).after 1 t = blk V c 1 t := by dsimp only [dat]
theorem after_w2 (c : Dev nD) (t : Fin cfg0.N) : (dat V c).after 2 t = blk V c 2 t := by dsimp only [dat]
theorem after_gate_left (c : Dev nD) (t : Fin cfg0.N) : (dat V c).after 3 t = (leftAt V c t).1 := by dsimp only [dat]

theorem before0 (c : Dev nD) (t : Fin cfg0.N) (d) : (dat V c).before 0 t d = blk V c 0 t :=
  before_tile V (dat V c) (dat_A V c 0) (after_tile V c) t d
theorem before1 (c : Dev nD) (t : Fin cfg0.N) (d) : (dat V c).before 1 t d = blk V c 1 t :=
  before_w1 V (dat V c) (dat_A V c 1) (after_w1 V c) t d
theorem before2 (c : Dev nD) (t : Fin cfg0.N) (d) : (dat V c).before 2 t d = blk V c 2 t :=
  before_w2 V (dat V c) (dat_A V c 2) (after_w2 V c) t d

/-! ## The body obligation -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (stgM0 t) fullShare ((dat V c).before 0 t d))
    ∗ (∃ d, owns (c : Thread nD τ) (stgM1 t) fullShare ((dat V c).before 1 t d))
    ∗ (∃ d, owns (c : Thread nD τ) (stgM2 t) fullShare ((dat V c).before 2 t d))
    ∗ (∃ d, owns (c : Thread nD τ) (stgM3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 3200000 in
/-- The body at any point.  The inputs' buffers hold their blocks; the parity of the point says which case runs.  At
    an even point the gate buffer is handed back as found and the scratch column, taken at anything, comes back at
    the zero column plus the tile's lane sums; at an odd point the scratch column is taken at what the even point
    before left and the gate buffer comes back at the gate of the accumulated column.  Nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (stgM0 t) fullShare ((dat V c).after 0 t) from rfl, after_tile,
    show (dat V c).leavesExact 1 t = owns (c : Thread nD τ) (stgM1 t) fullShare ((dat V c).after 1 t) from rfl, after_w1,
    show (dat V c).leavesExact 2 t = owns (c : Thread nD τ) (stgM2 t) fullShare ((dat V c).after 2 t) from rfl, after_w2]
  have hN : t.val < 64 := lt_of_lt_of_eq t.isLt (show cfg0.N = 64 from N_0)
  by_cases h0 : t.val % 2 = 0
  · have hf : isFirst (grid0.coords t) := (isFirst_iff t).mpr h0
    have hl : ¬isLast (grid0.coords t) := fun hl => by have := (isLast_iff t).mp hl; omega
    rw [Dat.leavesExact_idle (dat V c) 3 t (gate_idle t h0) (gate_kept t h0)]
    rw [leftAt_even V c t h0]
    dsimp only
    unfold scrEven scrFirst
    by_cases hz : t.val = 0
    · rw [Phi_at V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ hf hl (blk V c 0 t) (blk V c 1 t) (blk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [Phi_at V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ hf hl (blk V c 0 t) (blk V c 1 t) (blk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hf : ¬isFirst (grid0.coords t) := fun hf => by have := (isFirst_iff t).mp hf; omega
    have hl : isLast (grid0.coords t) := (isLast_iff t).mpr h1
    rw [show (dat V c).leavesExact 3 t = owns (c : Thread nD τ) (stgM3 t) fullShare ((dat V c).after 3 t) from by
      unfold Dat.leavesExact; rw [gate_live t h1], after_gate_left]
    rw [leftAt_odd V c t h1]
    dsimp only
    rw [Phi_at V c t, PhiS_pos V c _ _ hz, leftAt_even V c (pointBefore t) (by show (t.val - 1) % 2 = 0; omega)]
    dsimp only
    unfold gateOdd scrOdd gateLast scrLast
    iintro ⟨⟨⟨HS, Hoth⟩, Hg⟩, Ho, ⟨%d0, H0⟩, ⟨%d1, H1⟩, ⟨%d2, H2⟩, ⟨%d3, H3⟩⟩
    iapply ((runLast c (grid0.coords t) _ _ _ _ _ _ _ _ _ _ hf hl (blk V c 0 t) (blk V c 1 t) (blk V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverLastS c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLastO c _ _ _ _ _ _ _ _ _ _ _ _ _ _ _ _ _)

theorem obligation (c : Dev nD) : BodyObligation (dat (F := F) V c) (defs₀ (F := F)) Variants.none () Set.univ := fun t => by
  rw [bigSep_W0, bigSep_W0]
  exact sound_body V c t

theorem phi_in (c : Dev nD) : Pipeline.ΦA spec0 c ⊢ (dat V c).Φ 0 := by
  rw [show (dat V c).Φ 0 = PhiS V c 0 (Nat.zero_le _) from rfl, PhiS_zero V c 0 _ rfl]

/-- After any point the invariant gives the class's back: what the scratch column holds is forgotten. -/
theorem Phi_forget (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem phi_out (c : Dev nD) : (dat V c).Φ (Fin.last cfg0.N) ⊢ Pipeline.ΦA spec0 c :=
  Phi_forget V c _ (by rw [Fin.val_last]; have : cfg0.N = 64 := N_0; omega)

/-- What an odd point (b, 1) leaves in the gate window: the gate of the two tiles' accumulated lane sums. -/
theorem after_gate (c : Dev nD) (t : Fin cfg0.N) (ht : t.val % 2 = 1) :
    (dat V c).after 3 t
      = k0_pay3 (k0_pay2 (k0_pay2 k0_pay1 (blk V c 0 ⟨t.val - 1, by omega⟩)) (blk V c 0 t)) (blk V c 1 t) (blk V c 2 t) := by
  rw [after_gate_left, leftAt_odd V c t ht]
  dsimp only
  unfold gateOdd
  rw [gateLast_eq c (grid0.coords t) (stgM0 t) (stgW0 t) (stgM1 t) (stgW1 t) (stgM2 t) (stgW2 t) (stgM3 t) (stgW3 t) scM (Memref.isWhole_whole _)
    (fun hf => by have := (isFirst_iff t).mp hf; omega) ((isLast_iff t).mpr ht) (blk V c 0 t) (blk V c 1 t) (blk V c 2 t)
    (scrEven V c (pointBefore t) (by show (t.val - 1) % 2 = 0; omega))]
  unfold scrEven
  rw [scrFirst_eq c (grid0.coords (pointBefore t)) (stgM0 (pointBefore t)) (stgW0 (pointBefore t)) (stgM1 (pointBefore t)) (stgW1 (pointBefore t)) (stgM2 (pointBefore t)) (stgW2 (pointBefore t)) (stgM3 (pointBefore t)) (stgW3 (pointBefore t)) scM (Memref.isWhole_whole _)
    ((isFirst_iff (pointBefore t)).mpr (by show (t.val - 1) % 2 = 0; omega)) (fun hl => by have := (isLast_iff (pointBefore t)).mp hl; have e : (pointBefore t).val = t.val - 1 := rfl; omega)
    (blk V c 0 (pointBefore t)) (blk V c 1 (pointBefore t)) (blk V c 2 (pointBefore t))]

end Cert.ReferenceIdeal.Pool

end
-- ==== Proof.RefScale.lean ====
/-
  The reference's second region (the scaling), at the contents V its region is entered with: the proof data of
  its pipeline, the obligation of its body at every grid point, and the array it leaves.  A grid point is (b, k)
  with k in {0, 1}; the body multiplies the k-th half (2048 lanes) of batch element b's flattened rows by the
  gate column of b, broadcast along the lanes, and the product is written back at every point.
-/
import proofs.«159505_g2000407024704625_pallasbulk_269_7_alg».proof.Proof.Gen.ReferenceIdeal.Launch
import proofs.«159505_g2000407024704625_pallasbulk_269_7_alg».proof.Proof.Gen.ReferenceIdeal.Skeleton
import proofs.«159505_g2000407024704625_pallasbulk_269_7_alg».proof.Proof.Gen.ReferenceIdeal.Points
import Idealize.ShloMosaic.Lib.Pipeline.Value
import Idealize.ShloMosaic.Lib.ValueIdx
import Idealize.ShloMosaic.PureOps.Ideal
import Idealize.ShloMosaic.Lib.Pipeline.FrameBody
import Idealize.ShloMosaic.Lib.Ring
import Idealize.ShloMosaic.Lib.Tactic

set_option maxRecDepth 16384

noncomputable section

namespace Cert.ReferenceIdeal.Scale

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in its two input buffers -/

/-- The tile window (window 0) is fetched at every point and the body leaves it alone, so for any proof data
    over the entry contents whose body keeps the tile, the current buffer holds the tile of the point. -/
theorem tile_found_of {c : Dev nD} (D : Dat τ (Elt F) Unit ℕ (UR sig nD τ) ℕ cfg1 c) (hA : D.A 0 = V c (Pipeline.arrRef spec1 0))
    (hkept : ∀ t, D.after 0 t = blk V c 0 t) (t : Fin cfg1.N) (d) : D.before 0 t d = blk V c 0 t :=
  (D.before_in_eq_fetched 0 rfl (fun _ => rfl) (fun _ _ _ => rfl)
      (fun t => by rw [hkept]; unfold Dat.blockOf blk; rw [hA]; try rfl) t d).trans
    (by unfold Dat.fetched Dat.blockOf blk; rw [hA]; try rfl)

/-- The gate window (window 1) is fetched only when the batch element changes (the even points); at an odd point
    its block index has not moved, so the buffer still holds the gate block of the point: the same conclusion. -/
theorem gate_found_of {c : Dev nD} (D : Dat τ (Elt F) Unit ℕ (UR sig nD τ) ℕ cfg1 c) (hA : D.A 1 = V c (Pipeline.arrRef spec1 1))
    (hkept : ∀ t, D.after 1 t = blk V c 1 t) (t : Fin cfg1.N) (d) : D.before 1 t d = blk V c 1 t :=
  (D.before_in_eq_fetched 1 rfl (fun _ => rfl) (fun _ _ _ => rfl)
      (fun t => by rw [hkept]; unfold Dat.blockOf blk; rw [hA]; try rfl) t d).trans
    (by unfold Dat.fetched Dat.blockOf blk; rw [hA]; try rfl)

/-! ## The body's accesses: each buffer whole -/

/-- The whole [1, 512, 2048] buffer (the tile's and the product's). -/
abbrev wholeTile : Rect S1x512x2048 := Rect.unit (s := S1x512x2048) ![0, 0, 0] S1x512x2048.size inb_S1x512x2048_S1x512x2048_0_0_0
/-- The whole [1, 512, 1] buffer (the gate block's). -/
abbrev wholeGate : Rect S1x512x1 := Rect.unit (s := S1x512x1) ![0, 0, 0] S1x512x1.size inb_S1x512x1_S1x512x1_0_0_0

/-! ## What the body leaves in the output buffer -/

/-- The output buffer after the body, from the tile x and the gate block g: the one store, of the product
    of the tile by the gate column broadcast along the lanes, over the whole buffer. -/
def scaled (x : Vec F S1x512x2048 .f32) (g : Vec F S1x512x1 .f32) : Vec F S1x512x2048 .f32 :=
  View.canon [⟨wholeTile, k1_pay1 (View.ld x wholeTile) (View.ld g wholeGate)⟩]

/-- The one store is of the whole buffer, so it covers it. -/
theorem scaled_cover (p : Vec F S1x512x2048 .f32) (y : S1x512x2048.Idx) :
    ∃ pc ∈ ([⟨wholeTile, p⟩] : List (View.Piece (Elt F) S1x512x2048 .f32)), y ∈ pc.1.set :=
  View.cover_of_tiled [⟨wholeTile, p⟩] S1x512x2048.size (by rfl) y

/-! ## The body's triple -/

set_option maxHeartbeats 1000000 in
/-- The body on whole buffers, the tile's reading x, the gate's reading g and the output's anything, runs to a
    continuation that holds the two inputs as they were and the output at the scaled tile. -/
theorem body_sound (c : Dev nD) (E : Set ℕ) (i : grid1.Coords)
    (arg2 : Memref sig .tc .vmem S1x512x2048 .f32) (harg2 : arg2.IsWhole)
    (arg3 : Memref sig .tc .vmem S1x512x1 .f32) (harg3 : arg3.IsWhole)
    (arg4 : Memref sig .tc .vmem S1x512x2048 .f32) (harg4 : arg4.IsWhole)
    (x : Vec F S1x512x2048 .f32) (g : Vec F S1x512x1 .f32) (K : PUnit → sProp 𝕄) :
    iprop(owns (c : Thread nD τ) arg2 fullShare x ∗ owns (c : Thread nD τ) arg3 fullShare g
        ∗ (∃ d, owns (c : Thread nD τ) arg4 fullShare d)
        ∗ (iprop(owns (c : Thread nD τ) arg2 fullShare x ∗ owns (c : Thread nD τ) arg3 fullShare g
            ∗ owns (c : Thread nD τ) arg4 fullShare (scaled x g)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-! ## The proof data -/

/-- The proof data of the scaling pipeline on core c: the arrays as the region finds them; after the body at
    a point the two inputs' buffers at their blocks and the output's at the scaled tile; the invariant the
    plain one (the scoped rest and the generator register, untouched); nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => scaled (blk V c 0 t) (blk V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem dat_q (c : Dev nD) (w : Fin cfg1.W) : (dat V c).q w = fullShare := by
  dsimp only [dat]

theorem dat_owed (c : Dev nD) (t : Fin (cfg1.N + 1)) : (dat V c).owed t = 0 := by
  dsimp only [dat]

theorem dat_phi (c : Dev nD) (t : Fin (cfg1.N + 1)) : (dat V c).Φ t = Pipeline.ΦA spec1 c := by
  dsimp only [dat]

theorem dat_recorded (c : Dev nD) (t : Fin (cfg1.N + 1)) : (dat V c).recorded t = Set.univ := rfl

/-- What the body leaves, window by window. -/
theorem after_tile (c : Dev nD) (t : Fin cfg1.N) : (dat V c).after 0 t = blk V c 0 t := by dsimp only [dat]
theorem after_gate (c : Dev nD) (t : Fin cfg1.N) : (dat V c).after 1 t = blk V c 1 t := by dsimp only [dat]
theorem after_out (c : Dev nD) (t : Fin cfg1.N) : (dat V c).after 2 t = scaled (blk V c 0 t) (blk V c 1 t) := by dsimp only [dat]

/-- What the body finds, input by input. -/
theorem tile_found (c : Dev nD) (t : Fin cfg1.N) (d) : (dat V c).before 0 t d = blk V c 0 t :=
  tile_found_of V (dat V c) (dat_A V c 0) (after_tile V c) t d
theorem gate_found (c : Dev nD) (t : Fin cfg1.N) (d) : (dat V c).before 1 t d = blk V c 1 t :=
  gate_found_of V (dat V c) (dat_A V c 1) (after_gate V c) t d

/-! ## The body obligation, at a generic point -/

/-- What the body is called with at point t, the windows one by one, -/
def atCall (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def atReturn (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the body's triple applies; the invariant
    and what the core owes pass through unread. -/
theorem point_sound (c : Dev nD) (t : Fin cfg1.N) :
    atCall V c t ⊢ wp frame (wpE (defs₀ (F := F)) Variants.none c none) Set.univ (bodyAt1 t) (fun _ => atReturn V c t) := by
  unfold atCall atReturn bodyAt1
  simp only [tile_found, gate_found]
  rw [show (dat V c).Φ t.succ = (dat V c).Φ t.castSucc from rfl,
    show (dat V c).owesAt () t.succ = (dat V c).owesAt () t.castSucc from rfl,
    after_tile, after_gate, after_out]
  iintro ⟨HΦ, Ho, ⟨%d0, H0⟩, ⟨%d1, H1⟩, ⟨%d2, H2⟩⟩
  iapply (body_sound c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation (c : Dev nD) : BodyObligation (dat (F := F) V c) (defs₀ (F := F)) Variants.none () Set.univ := fun t => by
  rw [bigSep_W1, bigSep_W1]
  exact point_sound V c t

/-- The flattened input as the region finds it, at its literal type. -/
abbrev flatIn (V : (c : Dev nD) → (b : Ref sig .tc) → Buf (Elt Ideal) ((c : Thread nD τ).loc b)) (c : Dev nD) : FVec Ideal S32x512x4096 .f32 := V c main_v0
/-- The gate array as the region finds it, at its literal type. -/
abbrev gateIn (V : (c : Dev nD) → (b : Ref sig .tc) → Buf (Elt Ideal) ((c : Thread nD τ).loc b)) (c : Dev nD) : FVec Ideal S32x512x1 .f32 := V c main_v2
/-- The array the region leaves, at its literal type. -/
abbrev flatOut (V : (c : Dev nD) → (b : Ref sig .tc) → Buf (Elt Ideal) ((c : Thread nD τ).loc b)) (c : Dev nD) : FVec Ideal S32x512x4096 .f32 := (dat V c).arrAt 2 cfg1.N

/-! ## The payload at one element (at the ideal instance) -/

/-- A [512, 2048] value stored as a [1, 512, 2048] block reads, at (p, q, r), its entry (q, r). -/
theorem asBlock_apply {α : Type} (X : S512x2048.Idx → α) (h : S512x2048.ShapeCasts S1x512x2048)
    (p : Fin 1) (q : Fin 512) (r : Fin 2048) : shapeCast S1x512x2048 X h (ix3 p q r) = X (ix2 q r) :=
  (shapeCast_addUnit_apply ![512, 2048] X h (ix3 p q r)).trans
    (congrArg X (funext fun a => match a with | ⟨0, _⟩ => rfl | ⟨1, _⟩ => rfl))

/-- The [1, 512, 2048] tile viewed [512, 2048] reads, at (q, r), the tile's entry (0, q, r). -/
theorem tileRows_apply {α : Type} (X : S1x512x2048.Idx → α) (h : S1x512x2048.ShapeCasts S512x2048)
    (q : Fin 512) (r : Fin 2048) : shapeCast S512x2048 X h (ix2 q r) = X (ix3 (0 : Fin 1) q r) :=
  (shapeCast_dropUnit_apply ![512, 2048] X h (ix2 q r)).trans
    (congrArg X (funext fun a => match a with | ⟨0, _⟩ => rfl | ⟨1, _⟩ => rfl | ⟨2, _⟩ => rfl))

/-- The [1, 512, 1] gate block viewed as a [512, 1] column reads, at (q, z), the block's entry (0, q, z). -/
theorem gateColumn_apply {α : Type} (X : S1x512x1.Idx → α) (h : S1x512x1.ShapeCasts S512x1)
    (q : Fin 512) (z : Fin 1) : shapeCast S512x1 X h (ix2 q z) = X (ix3 (0 : Fin 1) q z) :=
  (shapeCast_dropUnit_apply ![512, 1] X h (ix2 q z)).trans
    (congrArg X (funext fun a => match a with | ⟨0, _⟩ => rfl | ⟨1, _⟩ => rfl | ⟨2, _⟩ => rfl))

/-- The [512, 1] column broadcast along 2048 lanes reads, at (q, r), the column's entry (q, 0). -/
theorem alongLanes_apply {α : Type} (G : S512x1.Idx → α) (h : S512x1.Broadcasts S512x2048)
    (q : Fin 512) (r : Fin 2048) : broadcastTo S512x2048 G h (ix2 q r) = G (ix2 q (0 : Fin 1)) :=
  broadcastTo_apply G h (ix2 q r) (ix2 q (0 : Fin 1)) fun a => match a with
    | ⟨0, _⟩ => rfl
    | ⟨1, _⟩ => rfl

/-- The body's payload at (p, q, r): the tile's entry (0, q, r) times the gate block's entry (0, q, 0). -/
theorem pay_apply (x : FVec Ideal S1x512x2048 .f32) (g : FVec Ideal S1x512x1 .f32)
    (p : Fin 1) (q : Fin 512) (r : Fin 2048) :
    k1_pay1 x g (ix3 p q r) = x (ix3 (0 : Fin 1) q r) * g (ix3 (0 : Fin 1) q (0 : Fin 1)) := by
  unfold k1_pay1
  rw [asBlock_apply, mulf_apply, tileRows_apply, alongLanes_apply, gateColumn_apply]

/-! ## From the blocks to the array -/

theorem zeros3 : (![0, 0, 0] : Fin 3 → Nat) = fun _ => 0 := funext fun a => by fin_cases a <;> rfl

/-- What the array ends holding: every flattened entry times the gate of its batch element and channel. -/
abbrev target (V : (c : Dev nD) → (b : Ref sig .tc) → Buf (Elt Ideal) ((c : Thread nD τ).loc b)) (c : Dev nD) : FVec Ideal S32x512x4096 .f32 :=
  fun i => flatIn V c i
    * gateIn V c (ix3 (⟨(i 0).val, (i 0).isLt⟩ : Fin 32) (⟨(i 1).val, (i 1).isLt⟩ : Fin 512) (0 : Fin 1))

/-- The printed index maps over the grid: at point t = 2 b + k the tile and the output are at block (b, 0, k)
    and the gate at block (b, 0, 0). -/
theorem index_facts : ∀ t : Fin cfg1.N,
    win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = 0
    ∧ win1_1.index t (2 : Fin 3) = 0
    ∧ win1_2.index t (0 : Fin 3) = t.val / 2
    ∧ win1_2.index t (1 : Fin 3) = 0
    ∧ win1_2.index t (2 : Fin 3) = t.val % 2 :=
  (by decide +kernel : ∀ t : Fin grid1.N, _)

/-- What point t writes back is block t of the target. -/
theorem flushed_eq (V : (c : Dev nD) → (b : Ref sig .tc) → Buf (Elt Ideal) ((c : Thread nD τ).loc b)) (c : Dev nD) (t : Fin cfg1.N) :
    (dat V c).flushed 2 t = ((cfg1.win 2).blk t).view.read (Elt Ideal) (target V c) := by
  show (cfg1.win 2).cut (grid1.coords t) ((dat V c).after 2 t) = _
  rw [after_out]
  unfold scaled
  rw [View.canon_unit_zero zeros3]
  simp only [View.ld_unit_zero (S := S1x512x2048) zeros3, View.ld_unit_zero (S := S1x512x1) zeros3]
  obtain ⟨e00, e01, e02, e10, e11, e12, e20, e21, e22⟩ := index_facts t
  funext j
  obtain ⟨p, q, r, rfl⟩ : ∃ (p : Fin 1) (q : Fin 512) (r : Fin 2048), j = ix3 p q r := ⟨j 0, j 1, j 2, eq_ix3 j⟩
  show k1_pay1 (blk V c 0 t) (blk V c 1 t) (ix3 p q r) = target V c (((cfg1.win 2).blk t).view.emb (ix3 p q r))
  rw [pay_apply]
  show flatIn V c (((cfg1.win 0).blk t).view.emb (ix3 (0 : Fin 1) q r))
        * gateIn V c (((cfg1.win 1).blk t).view.emb (ix3 (0 : Fin 1) q (0 : Fin 1)))
      = flatIn V c (((cfg1.win 2).blk t).view.emb (ix3 p q r))
        * gateIn V c (ix3 (⟨((((cfg1.win 2).blk t).view.emb (ix3 p q r)) 0).val, ((((cfg1.win 2).blk t).view.emb (ix3 p q r)) 0).isLt⟩ : Fin 32)
            (⟨((((cfg1.win 2).blk t).view.emb (ix3 p q r)) 1).val, ((((cfg1.win 2).blk t).view.emb (ix3 p q r)) 1).isLt⟩ : Fin 512) (0 : Fin 1))
  have hp : p.val = 0 := by have := p.isLt; omega
  have hq : q.val < 512 := q.isLt
  have hr : r.val < 2048 := r.isLt
  have hx : ((cfg1.win 0).blk t).view.emb (ix3 (0 : Fin 1) q r) = ((cfg1.win 2).blk t).view.emb (ix3 p q r) := by
    funext a; apply Fin.ext
    match a with
    | ⟨0, _⟩ => show win1_0.index t (0 : Fin 3) * 1 + 1 * 0 = win1_2.index t (0 : Fin 3) * 1 + 1 * p.val; omega
    | ⟨1, _⟩ => show win1_0.index t (1 : Fin 3) * 512 + 1 * q.val = win1_2.index t (1 : Fin 3) * 512 + 1 * q.val; omega
    | ⟨2, _⟩ => show win1_0.index t (2 : Fin 3) * 2048 + 1 * r.val = win1_2.index t (2 : Fin 3) * 2048 + 1 * r.val; omega
  have hg : ((cfg1.win 1).blk t).view.emb (ix3 (0 : Fin 1) q (0 : Fin 1))
      = ix3 (⟨((((cfg1.win 2).blk t).view.emb (ix3 p q r)) 0).val, ((((cfg1.win 2).blk t).view.emb (ix3 p q r)) 0).isLt⟩ : Fin 32)
            (⟨((((cfg1.win 2).blk t).view.emb (ix3 p q r)) 1).val, ((((cfg1.win 2).blk t).view.emb (ix3 p q r)) 1).isLt⟩ : Fin 512) (0 : Fin 1) := by
    funext a; apply Fin.ext
    match a with
    | ⟨0, _⟩ => show win1_1.index t (0 : Fin 3) * 1 + 1 * 0 = win1_2.index t (0 : Fin 3) * 1 + 1 * p.val; omega
    | ⟨1, _⟩ => show win1_1.index t (1 : Fin 3) * 512 + 1 * q.val = win1_2.index t (1 : Fin 3) * 512 + 1 * q.val; omega
    | ⟨2, _⟩ => show win1_1.index t (2 : Fin 3) * 1 + 1 * 0 = 0; omega
  rw [hx, hg]

/-- An index of the array is in point t's block iff each coordinate is in the block's range on its axis. -/
theorem mem_block (t : Fin cfg1.N) (i : S32x512x4096.Idx) :
    i ∈ ((cfg1.win 2).blk t).view.set ↔ ∀ a : Fin 3, win1_2.index t a * S1x512x2048.size a ≤ (i a).val ∧ (i a).val < win1_2.index t a * S1x512x2048.size a + S1x512x2048.size a := by
  show i ∈ ((View.whole main_v3).slice (win1_2.rect t)).set ↔ _
  rw [View.set_slice_whole, Rect.mem_set_unit]
  exact Iff.rfl

/-- Every index (b, q, l) of the array is in the block of the point 2 b + l / 2048, which writes back. -/
theorem covered (i : S32x512x4096.Idx) :
    ∃ t : Fin cfg1.N, (cfg1.win 2).flush t = true ∧ i ∈ ((cfg1.win 2).blk t).view.set := by
  have h0 : (i 0).val < 32 := (i 0).isLt
  have h1 : (i 1).val < 512 := (i 1).isLt
  have h2 : (i 2).val < 4096 := (i 2).isLt
  have hN : cfg1.N = 64 := N_1
  have hlt : 2 * (i 0).val + (i 2).val / 2048 < cfg1.N := by rw [hN]; omega
  refine ⟨⟨2 * (i 0).val + (i 2).val / 2048, hlt⟩, flush1_2 _, ?_⟩
  obtain ⟨e00, e01, e02, e10, e11, e12, e20, e21, e22⟩ := index_facts ⟨2 * (i 0).val + (i 2).val / 2048, hlt⟩
  have d20 : win1_2.index ⟨2 * (i 0).val + (i 2).val / 2048, hlt⟩ (0 : Fin 3) = (2 * (i 0).val + (i 2).val / 2048) / 2 := e20
  have d22 : win1_2.index ⟨2 * (i 0).val + (i 2).val / 2048, hlt⟩ (2 : Fin 3) = (2 * (i 0).val + (i 2).val / 2048) % 2 := e22
  rw [mem_block]
  intro a
  match a with
  | ⟨0, _⟩ =>
    show win1_2.index ⟨2 * (i 0).val + (i 2).val / 2048, hlt⟩ (0 : Fin 3) * 1 ≤ (i 0).val
      ∧ (i 0).val < win1_2.index ⟨2 * (i 0).val + (i 2).val / 2048, hlt⟩ (0 : Fin 3) * 1 + 1
    omega
  | ⟨1, _⟩ =>
    show win1_2.index ⟨2 * (i 0).val + (i 2).val / 2048, hlt⟩ (1 : Fin 3) * 512 ≤ (i 1).val
      ∧ (i 1).val < win1_2.index ⟨2 * (i 0).val + (i 2).val / 2048, hlt⟩ (1 : Fin 3) * 512 + 512
    omega
  | ⟨2, _⟩ =>
    show win1_2.index ⟨2 * (i 0).val + (i 2).val / 2048, hlt⟩ (2 : Fin 3) * 2048 ≤ (i 2).val
      ∧ (i 2).val < win1_2.index ⟨2 * (i 0).val + (i 2).val / 2048, hlt⟩ (2 : Fin 3) * 2048 + 2048
    omega

/-- The array the region leaves: every flattened entry times the gate of its batch element and channel. -/
theorem final (V : (c : Dev nD) → (b : Ref sig .tc) → Buf (Elt Ideal) ((c : Thread nD τ).loc b)) (c : Dev nD) :
    flatOut V c = fun i => flatIn V c i
          * gateIn V c (ix3 (⟨(i 0).val, (i 0).isLt⟩ : Fin 32) (⟨(i 1).val, (i 1).isLt⟩ : Fin 512) (0 : Fin 1)) :=
  (dat V c).arrAt_eq_of_cover 2 (target V c) (fun t _ => flushed_eq V c t) covered

end Cert.ReferenceIdeal.Scale

end
-- ==== Proof.RefRun.lean ====
/-
  The reference's run, segment by segment: the two host operations before the regions (the flattening of x
  and the transposition of W1), the pooling region, the scaling region, and the host operation after them
  (the reshaping of the scaled array back to four axes).

  The contents of the core's unscoped buffers are followed through the four segments: at launch; after the first
  host stretch; after the pooling region, whose arrays then hold what its write-backs leave; after the scaling
  region likewise; after the last host stretch.  Every weakly fair execution terminates with every unscoped buffer
  at the last of these, which names the result array and shows the arguments unchanged.
-/
import proofs.«159505_g2000407024704625_pallasbulk_269_7_alg».proof.Proof.RefPool
import proofs.«159505_g2000407024704625_pallasbulk_269_7_alg».proof.Proof.RefScale
import proofs.«159505_g2000407024704625_pallasbulk_269_7_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
/-- After the first host stretch (the pooling region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the pooling region's exit: its arrays at what the pipeline leaves, every other buffer as entered. -/
def W2 (c : Dev nD) : Valuation τ sig (Elt F) :=
  Pipeline.withArrays spec0 c (W1 m c) fun w => (Pool.dat (V1 m) c).arrAt w cfg0.N
theorem W2_arr (c : Dev nD) (w : Fin cfg0.W) :
    W2 m c (Proc.devRef .tc (Pipeline.arrRef spec0 w)) = (Pool.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the scaling region's entry: no host operation stands between). -/
abbrev V2 : (c : Dev nD) → (b : Ref sig .tc) → Buf (Elt F) ((c : Thread nD τ).loc b) := fun c b => W2 m c b
theorem keep0 (c : Dev nD) (w : Fin cfg0.W) : (Pool.dat (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the scaling region's exit. -/
def W3 (c : Dev nD) : Valuation τ sig (Elt F) :=
  Pipeline.withArrays spec1 c (W2 m c) fun w => (Scale.dat (V2 m) c).arrAt w cfg1.N
theorem W3_arr (c : Dev nD) (w : Fin cfg1.W) :
    W3 m c (Proc.devRef .tc (Pipeline.arrRef spec1 w)) = (Scale.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem keep1 (c : Dev nD) (w : Fin cfg1.W) : (Scale.dat (V2 m) c).arrAt w cfg1.N = V3 m c (Pipeline.arrRef spec1 w) :=
  (W3_arr m c w).symm
theorem rest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: the end. -/
abbrev W4 : Dev nD → Valuation τ sig (Elt F) := fun c => StableHlo.after hostOps2 (W3 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Pool.dat (V1 m) c
  | ⟨1, _⟩ => fun c => Scale.dat (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The pooling region: entered from every unscoped buffer at W1, left at W2. -/
def regPool : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.obligation (V1 m) c).loose
  hwaits := Pipeline.hwaits_of_owed_zero _ _ _ _ L lv 0 fun c t => Pool.dat_owed (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => Pool.dat_q (V1 m) c w) (V1 m c) fun w => Pool.dat_A (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from Pool.dat_owed (V1 m) c 0]
      icases HO with ⟨%W, HO⟩; iexists W; isplitr
      · ipureintro; exact fun x _ => Or.inl (show x ∈ (Pool.dat (V1 m) c).recorded 0 from by rw [Pool.dat_recorded]; trivial)
      iexact HO
    isplitl [Hp]; · iexact Hp
    iexact Hrest
  hin c := by
    rw [show (pdats m 0 c).Φ 0 = (Pool.dat (V1 m) c).Φ 0 from rfl]
    iintro ⟨Hp, -, Hr⟩
    iapply (Pool.phi_in (V1 m) c)
    unfold Pipeline.ΦA
    isplitl [Hr]; · iexact Hr
    iexact Hp
  hout c := by
    rw [Pipeline.ownSems0_none, show (pdats m 0 c).Φ (Fin.last _) = (Pool.dat (V1 m) c).Φ (Fin.last cfg0.N) from rfl]
    iintro HF
    ihave H := (Pool.phi_out (V1 m) c) $$ HF
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => Pool.dat_q (V1 m) c w)
      (V1 m c) (V2 m c) ((pdats m 0 c).arrAt · cfg0.N) (keep0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from Pool.dat_owed (V1 m) c _]
    icases HO with ⟨%W, -, HO⟩; iexists W; iexact HO

set_option backward.isDefEq.respectTransparency.types false in
/-- The scaling region: entered from every unscoped buffer at W2, left at W3. -/
def regScale : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scale.obligation (V2 m) c).loose
  hwaits := Pipeline.hwaits_of_owed_zero _ _ _ _ L lv 1 fun c t => Scale.dat_owed (V2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => Scale.dat_q (V2 m) c w) (V2 m c) fun w => Scale.dat_A (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from Scale.dat_owed (V2 m) c 0]
      icases HO with ⟨%W, HO⟩; iexists W; isplitr
      · ipureintro; exact fun x _ => Or.inl (show x ∈ (Scale.dat (V2 m) c).recorded 0 from by rw [Scale.dat_recorded]; trivial)
      iexact HO
    isplitl [Hp]; · iexact Hp
    iexact Hrest
  hin c := by
    rw [show (pdats m 1 c).Φ 0 = Pipeline.ΦA spec1 c from Scale.dat_phi (V2 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Scale.dat_phi (V2 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => Scale.dat_q (V2 m) c w)
      (V2 m c) (V3 m c) ((pdats m 1 c).arrAt · cfg1.N) (keep1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from Scale.dat_owed (V2 m) c _]
    icases HO with ⟨%W, -, HO⟩; iexists W; iexact HO

/-! ## The program as segments, and the launch -/

/-- The four segments in order. -/
abbrev segs : List (Pipeline.Seg (pcfgs (F := F)) adm (pdats m) () defs₀ 𝒱₀ L lv) :=
  [ .host (hseg hostOps0 hostOps0_sub hostOps0_fresh (W0 m)),
    .region (regPool m),
    .region (regScale m),
    .host (hseg hostOps2 hostOps2_sub hostOps2_fresh (W3 m)) ]
/-- The program is the run of the segments. -/
theorem main_run (c : Dev nD) : main (F := F) c = Pipeline.Seg.run (segs m) := (main_chain c).trans (by chain_rfl)

set_option backward.isDefEq.respectTransparency.types false in
/-- Every weakly fair execution terminates with every unscoped buffer of every core at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄) ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.ReferenceIdeal.Run

end
-- ==== Proof.RefPoolValue.lean ====
/-
  The gate array the reference's first region leaves, as one function of the arrays it is entered with.

  Block (b, 0, 0) of the gate array is written back once, at the grid point (b, 1), with the excitation of the
  column that holds, for each channel, zero plus the lane sum of the first half (2048 lanes) of batch element
  b's flattened row plus the lane sum of its second half.  The 32 blocks tile the array.
-/
import proofs.«159505_g2000407024704625_pallasbulk_269_7_alg».proof.Proof.RefPool
import proofs.«159505_g2000407024704625_pallasbulk_269_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.PoolValue

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the region is entered with and the gate array it leaves, at their literal types. -/
abbrev flatIn (c : Dev nD) : FVec Ideal S32x512x4096 .f32 := V c main_v0
abbrev w1tIn (c : Dev nD) : FVec Ideal S512x32 .f32 := V c main_v1
abbrev w2In (c : Dev nD) : FVec Ideal S512x32 .f32 := V c main_arg2
abbrev gateOut (c : Dev nD) : FVec Ideal S32x512x1 .f32 := (Pool.dat V c).arrAt 3 cfg0.N

/-! ## The index maps over the grid -/

/-- A grid point t is (t / 2, t mod 2).  The gate window's block index is (t / 2, 0, 0); the flattened input's
    is (t / 2, 0, t mod 2); the two weight windows stay at block (0, 0). -/
theorem block_indices : ∀ t : Fin cfg0.N,
    win0_3.index t (0 : Fin 3) = t.val / 2 ∧ win0_3.index t (1 : Fin 3) = 0 ∧ win0_3.index t (2 : Fin 3) = 0
    ∧ win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The payloads at an index -/

/-- A vector of 512 entries viewed as a column reads, at (p, 0), its entry p. -/
theorem column_cast_apply (v : FVec Ideal S512 .f32) (h : S512.ShapeCasts S512x1) (p : Fin 512) (q : Fin 1) :
    shapeCast S512x1 v h (ix2 p q) = v (ix1 p) :=
  shapeCast_apply v h _ _ (by
    have hq : q.val = 0 := by omega
    rw [Shape.rowMajor_val_one, Shape.rowMajor_val_two]
    show p.val = p.val * 1 + q.val
    omega)

/-- The column the body starts from is zero. -/
theorem zero_column_apply (p : Fin 512) (q : Fin 1) : k0_pay1 (F := Ideal) (ix2 p q) = 0 := by
  unfold k0_pay1
  refine (congrFun (shapeCast_self _ _) (ix2 p q)).trans ?_
  exact Ideal.ofBits_zero_f32

/-- One accumulation step: the column plus, per channel, the sum over the tile's 2048 lanes. -/
theorem accumulate_apply (v3 : FVec Ideal S512x1 .f32) (v4 : FVec Ideal S1x512x2048 .f32) (p : Fin 512) (q : Fin 1) :
    k0_pay2 v3 v4 (ix2 p q) = v3 (ix2 p q) + ∑ l : Fin 2048, v4 (ix3 (0 : Fin 1) p l) := by
  unfold k0_pay2
  refine (congrFun (shapeCast_self _ _) (ix2 p q)).trans ?_
  refine (addf_apply _ _ _).trans ?_
  refine congrArg (v3 (ix2 p q) + ·) ?_
  refine (column_cast_apply _ _ p q).trans ?_
  refine (Cert.SE.reduce_tile _ p).trans ?_
  refine Finset.sum_congr rfl fun l _ => ?_
  exact shapeCast_1ab_ab_apply v4 _ p l

/-- The gate block at (0, p, 0) is the excitation of the column at (p, 0). -/
theorem gate_block_apply (acc : FVec Ideal S512x1 .f32) (w1 w2 : FVec Ideal S512x32 .f32) (j : S1x512x1.Idx) :
    k0_pay3 acc w1 w2 j = Cert.SE.excite (F := Ideal) acc w1 w2 (ix2 (⟨(j 1).val, (j 1).isLt⟩ : Fin 512) (0 : Fin 1)) := by
  obtain ⟨u, p, q, rfl⟩ : ∃ (u : Fin 1) (p : Fin 512) (q : Fin 1), j = ix3 u p q := ⟨j 0, j 1, j 2, eq_ix3 j⟩
  have e : k0_pay3 acc w1 w2 = shapeCast (⟨3, ![1, 512, 1]⟩ : Shape) (Cert.SE.excite (F := Ideal) acc w1 w2) (by decide) := rfl
  rw [e]
  refine (shapeCast_ab_1ab_apply _ _ u p q).trans ?_
  have hq : q = 0 := Fin.ext (by omega)
  subst hq
  rfl

/-! ## The input windows' blocks, read off the arrays -/

/-- The flattened input's tile at a grid point whose block index is (b, 0, k): at (0, p, l) it is the array at
    (b, p, 2048 k + l).  An element of a block sits at block index times block size plus its own coordinate. -/
theorem flat_tile_apply (c : Dev nD) (t : Fin cfg0.N) (b : Fin 32) (p : Fin 512) (l : Fin 2048) (j : Fin 4096)
    (h0 : win0_0.index t (0 : Fin 3) = b.val) (h1 : win0_0.index t (1 : Fin 3) = 0)
    (h2 : win0_0.index t (2 : Fin 3) * 2048 + l.val = j.val) :
    (Pool.blk V c 0 t : FVec Ideal S1x512x2048 .f32) (ix3 (0 : Fin 1) p l) = flatIn V c (ix3 b p j) := by
  show flatIn V c (((cfg0.win 0).blk t).view.emb (ix3 (0 : Fin 1) p l)) = flatIn V c (ix3 b p j)
  refine congrArg (flatIn V c) ?_
  funext a
  apply Fin.ext
  match a with
  | ⟨0, _⟩ => show win0_0.index t (0 : Fin 3) * 1 + 1 * 0 = b.val; omega
  | ⟨1, _⟩ => show win0_0.index t (1 : Fin 3) * 512 + 1 * p.val = p.val; omega
  | ⟨2, _⟩ => show win0_0.index t (2 : Fin 3) * 2048 + 1 * l.val = j.val; omega

/-- The first weight window's one block is its whole array. -/
theorem w1t_block_whole (c : Dev nD) (t : Fin cfg0.N) : (Pool.blk V c 1 t : FVec Ideal S512x32 .f32) = w1tIn V c := by
  obtain ⟨-, -, -, -, -, -, e0, e1, -, -⟩ := block_indices t
  funext j
  have hj0 : (j 0).val < 512 := (j 0).isLt
  have hj1 : (j 1).val < 32 := (j 1).isLt
  show w1tIn V c (((cfg0.win 1).blk t).view.emb j) = w1tIn V c j
  refine congrArg (w1tIn V c) ?_
  funext a
  apply Fin.ext
  match a with
  | ⟨0, _⟩ => show win0_1.index t (0 : Fin 2) * 512 + 1 * (j 0).val = (j 0).val; omega
  | ⟨1, _⟩ => show win0_1.index t (1 : Fin 2) * 32 + 1 * (j 1).val = (j 1).val; omega

/-- The second weight window's one block is its whole array. -/
theorem w2_block_whole (c : Dev nD) (t : Fin cfg0.N) : (Pool.blk V c 2 t : FVec Ideal S512x32 .f32) = w2In V c := by
  obtain ⟨-, -, -, -, -, -, -, -, e0, e1⟩ := block_indices t
  funext j
  have hj0 : (j 0).val < 512 := (j 0).isLt
  have hj1 : (j 1).val < 32 := (j 1).isLt
  show w2In V c (((cfg0.win 2).blk t).view.emb j) = w2In V c j
  refine congrArg (w2In V c) ?_
  funext a
  apply Fin.ext
  match a with
  | ⟨0, _⟩ => show win0_2.index t (0 : Fin 2) * 512 + 1 * (j 0).val = (j 0).val; omega
  | ⟨1, _⟩ => show win0_2.index t (1 : Fin 2) * 32 + 1 * (j 1).val = (j 1).val; omega

/-! ## The accumulated column at an odd point -/

/-- At the odd point (b, 1) the column the body has accumulated, zero plus the lane sums of the tile of point
    (b, 0) plus those of the tile of point (b, 1), is the column of batch element b's two half sums. -/
theorem accumulated_eq_tileSums (c : Dev nD) (t : Fin cfg0.N) (ht : t.val % 2 = 1) (hb : t.val / 2 < 32) :
    k0_pay2 (k0_pay2 (k0_pay1 (F := Ideal)) (Pool.blk V c 0 ⟨t.val - 1, by omega⟩)) (Pool.blk V c 0 t)
      = Cert.SE.tileSums (flatIn V c) (⟨t.val / 2, hb⟩ : Fin 32) := by
  have hlt : t.val - 1 < cfg0.N := by have := t.isLt; omega
  obtain ⟨-, -, -, a0, a1, a2, -⟩ := block_indices t
  have b0 : win0_0.index ⟨t.val - 1, hlt⟩ (0 : Fin 3) = (t.val - 1) / 2 := (block_indices ⟨t.val - 1, hlt⟩).2.2.2.1
  have b1 : win0_0.index ⟨t.val - 1, hlt⟩ (1 : Fin 3) = 0 := (block_indices ⟨t.val - 1, hlt⟩).2.2.2.2.1
  have b2 : win0_0.index ⟨t.val - 1, hlt⟩ (2 : Fin 3) = (t.val - 1) % 2 := (block_indices ⟨t.val - 1, hlt⟩).2.2.2.2.2.1
  funext j
  obtain ⟨p, q, rfl⟩ : ∃ (p : Fin 512) (q : Fin 1), j = ix2 p q := ⟨j 0, j 1, eq_ix2 j⟩
  refine (accumulate_apply (k0_pay2 (k0_pay1 (F := Ideal)) (Pool.blk V c 0 ⟨t.val - 1, hlt⟩)) (Pool.blk V c 0 t) p q).trans ?_
  show _ = (0 + ∑ l : Fin 2048, flatIn V c (ix3 (⟨t.val / 2, hb⟩ : Fin 32) p (⟨l.val, by omega⟩ : Fin 4096)))
      + ∑ l : Fin 2048, flatIn V c (ix3 (⟨t.val / 2, hb⟩ : Fin 32) p (⟨2048 + l.val, by omega⟩ : Fin 4096))
  refine congrArg₂ (· + ·) ?_ ?_
  · refine (accumulate_apply (k0_pay1 (F := Ideal)) (Pool.blk V c 0 ⟨t.val - 1, hlt⟩) p q).trans ?_
    refine congrArg₂ (· + ·) (zero_column_apply p q) ?_
    refine Finset.sum_congr rfl fun l _ => ?_
    exact flat_tile_apply V c ⟨t.val - 1, hlt⟩ ⟨t.val / 2, hb⟩ p l ⟨l.val, by omega⟩
      (by rw [b0]; show (t.val - 1) / 2 = t.val / 2; omega) b1 (by rw [b2]; show (t.val - 1) % 2 * 2048 + l.val = l.val; omega)
  · refine Finset.sum_congr rfl fun l _ => ?_
    exact flat_tile_apply V c t ⟨t.val / 2, hb⟩ p l ⟨2048 + l.val, by omega⟩
      a0 a1 (by rw [a2]; show t.val % 2 * 2048 + l.val = 2048 + l.val; omega)

/-! ## What an odd point writes back, and the whole array -/

/-- The gate array as one function of the arrays the region is entered with. -/
abbrev gateOf (c : Dev nD) : FVec Ideal S32x512x1 .f32 := fun i => Cert.SE.excite (F := Ideal)
  (Cert.SE.tileSums (flatIn V c) (⟨(i 0).val, (i 0).isLt⟩ : Fin 32)) (w1tIn V c) (w2In V c)
  (ix2 (⟨(i 1).val, (i 1).isLt⟩ : Fin 512) (0 : Fin 1))

/-- The function at an index whose first two coordinates are b and p. -/
theorem gateOf_apply (c : Dev nD) (i : S32x512x1.Idx) (b : Fin 32) (p : Fin 512) (hb : (i 0).val = b.val) (hp : (i 1).val = p.val) :
    gateOf V c i = Cert.SE.excite (F := Ideal) (Cert.SE.tileSums (flatIn V c) b) (w1tIn V c) (w2In V c) (ix2 p (0 : Fin 1)) := by
  have eb : (⟨(i 0).val, (i 0).isLt⟩ : Fin 32) = b := Fin.ext hb
  have ep : (⟨(i 1).val, (i 1).isLt⟩ : Fin 512) = p := Fin.ext hp
  show Cert.SE.excite (F := Ideal) (Cert.SE.tileSums (flatIn V c) (⟨(i 0).val, (i 0).isLt⟩ : Fin 32)) (w1tIn V c) (w2In V c)
      (ix2 (⟨(i 1).val, (i 1).isLt⟩ : Fin 512) (0 : Fin 1)) = _
  rw [eb, ep]

/-- What the odd point t writes back is block t of the function. -/
theorem odd_point_writes_gate (c : Dev nD) (t : Fin cfg0.N) (ht : t.val % 2 = 1) :
    (Pool.dat V c).flushed 3 t = ((cfg0.win 3).blk t).view.read (Elt Ideal) (gateOf V c) := by
  have hN : cfg0.N = 64 := N_0
  have hb : t.val / 2 < 32 := by have := t.isLt; omega
  obtain ⟨e0, e1, e2, -⟩ := block_indices t
  show (cfg0.win 3).cut (grid0.coords t) ((Pool.dat V c).after 3 t) = _
  rw [Pool.after_gate V c t ht, accumulated_eq_tileSums V c t ht hb, w1t_block_whole V c t, w2_block_whole V c t]
  funext j
  have hj0 : (j 0).val < 1 := (j 0).isLt
  have hj1 : (j 1).val < 512 := (j 1).isLt
  refine (gate_block_apply (Cert.SE.tileSums (flatIn V c) (⟨t.val / 2, hb⟩ : Fin 32)) (w1tIn V c) (w2In V c) j).trans ?_
  show _ = gateOf V c (((cfg0.win 3).blk t).view.emb j)
  refine (gateOf_apply V c _ ⟨t.val / 2, hb⟩ ⟨(j 1).val, hj1⟩ ?_ ?_).symm
  · show win0_3.index t (0 : Fin 3) * 1 + 1 * (j 0).val = t.val / 2; omega
  · show win0_3.index t (1 : Fin 3) * 512 + 1 * (j 1).val = (j 1).val; omega

/-- An index of the gate array is in point t's block iff each coordinate is in the block's range on its axis. -/
theorem mem_gate_block (t : Fin cfg0.N) (i : S32x512x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v2).slice (win0_3.rect t)).set ↔ _
  rw [View.set_slice_whole, Rect.mem_set_unit]
  exact Iff.rfl

/-- Index (b, p, 0) lies in the block of the odd point 2 b + 1. -/
theorem gate_blocks_cover (i : S32x512x1.Idx) :
    ∃ t : Fin cfg0.N, (cfg0.win 3).flush t = true ∧ i ∈ ((cfg0.win 3).blk t).view.set := by
  have hN : cfg0.N = 64 := N_0
  have h0 : (i 0).val < 32 := (i 0).isLt
  have h1 : (i 1).val < 512 := (i 1).isLt
  have h2 : (i 2).val < 1 := (i 2).isLt
  have hlt : 2 * (i 0).val + 1 < cfg0.N := by omega
  have e0 : win0_3.index ⟨2 * (i 0).val + 1, hlt⟩ (0 : Fin 3) = (2 * (i 0).val + 1) / 2 := (block_indices ⟨2 * (i 0).val + 1, hlt⟩).1
  have e1 : win0_3.index ⟨2 * (i 0).val + 1, hlt⟩ (1 : Fin 3) = 0 := (block_indices ⟨2 * (i 0).val + 1, hlt⟩).2.1
  have e2 : win0_3.index ⟨2 * (i 0).val + 1, hlt⟩ (2 : Fin 3) = 0 := (block_indices ⟨2 * (i 0).val + 1, hlt⟩).2.2.1
  refine ⟨⟨2 * (i 0).val + 1, hlt⟩, (flush0_3 _).mpr (by show (2 * (i 0).val + 1) % 2 = 1; omega), ?_⟩
  rw [mem_gate_block]
  intro a
  match a with
  | ⟨0, _⟩ => show win0_3.index ⟨2 * (i 0).val + 1, hlt⟩ (0 : Fin 3) * 1 ≤ (i 0).val ∧ (i 0).val < win0_3.index ⟨2 * (i 0).val + 1, hlt⟩ (0 : Fin 3) * 1 + 1; omega
  | ⟨1, _⟩ => show win0_3.index ⟨2 * (i 0).val + 1, hlt⟩ (1 : Fin 3) * 512 ≤ (i 1).val ∧ (i 1).val < win0_3.index ⟨2 * (i 0).val + 1, hlt⟩ (1 : Fin 3) * 512 + 512; omega
  | ⟨2, _⟩ => show win0_3.index ⟨2 * (i 0).val + 1, hlt⟩ (2 : Fin 3) * 1 ≤ (i 2).val ∧ (i 2).val < win0_3.index ⟨2 * (i 0).val + 1, hlt⟩ (2 : Fin 3) * 1 + 1; omega

/-- The gate array: at (b, c', 0) the excitation of batch element b's accumulated half sums, read at channel c'. -/
theorem final (c : Dev nD) :
    gateOut V c = fun i => Cert.SE.excite (F := Ideal)
      (Cert.SE.tileSums (flatIn V c) (⟨(i 0).val, (i 0).isLt⟩ : Fin 32)) (w1tIn V c) (w2In V c)
      (ix2 (⟨(i 1).val, (i 1).isLt⟩ : Fin 512) (0 : Fin 1)) :=
  (Pool.dat V c).arrAt_eq_of_cover 3 (gateOf V c) (fun t hf => odd_point_writes_gate V c t ((flush0_3 t).mp hf)) gate_blocks_cover

end Cert.ReferenceIdeal.PoolValue

end
-- ==== Proof.RefValue.lean ====
/-
  The reference's result array as one function of its argument arrays.

  The last host operation reshapes the scaled flattened array back to four axes; the scaling region left that array
  at the flattened x times the gate array, entry by entry; the pooling region left the gate array at the excitation
  of the accumulated half sums of the flattened x; and the first host stretch made the flattened x and the transpose
  of W1.  Flattening, summing the halves, and un-flattening give x scaled by the gates of the shared specification.
-/
import proofs.«159505_g2000407024704625_pallasbulk_269_7_alg».proof.Proof.RefRun
import proofs.«159505_g2000407024704625_pallasbulk_269_7_alg».proof.Proof.RefPoolValue
import proofs.«159505_g2000407024704625_pallasbulk_269_7_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.ReferenceIdeal.HandValue

open Cert.ReferenceIdeal Cert.ReferenceIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays and the result array at the end of the run, at their literal types. -/
abbrev argX (c : Dev nD) : FVec Ideal S32x512x64x64 .f32 := m ((c : Thread nD τ).loc main_arg0)
abbrev argW1 (c : Dev nD) : FVec Ideal S32x512 .f32 := m ((c : Thread nD τ).loc main_arg1)
abbrev argW2 (c : Dev nD) : FVec Ideal S512x32 .f32 := m ((c : Thread nD τ).loc main_arg2)
abbrev result (c : Dev nD) : FVec Ideal S32x512x64x64 .f32 := Run.W4 m c (Proc.devRef .tc main_v4)

/-! ## What the host operations make, and what the regions hand on -/

/-- The scaled flattened array at the scaling region's exit, at its literal type. -/
abbrev scaled3 (c : Dev nD) : FVec Ideal S32x512x4096 .f32 := Run.W3 m c (Proc.devRef .tc main_v3)

/-- The pooling region is entered with the flattened x, -/
theorem flat_in (c : Dev nD) :
    PoolValue.flatIn (Run.V1 m) c = shapeCast S32x512x4096 (argX m c) shapeCasts_S32x512x64x64_S32x512x4096 := by
  show StableHlo.after hostOps0 _ (Proc.devRef .tc main_v0) = _
  after_results
  rfl

/-- with the transpose of W1, -/
theorem w1t_in (c : Dev nD) :
    PoolValue.w1tIn (Run.V1 m) c = transpose S512x32 [1, 0] (argW1 m c) transposes_S32x512_S512x32_1_0 := by
  show StableHlo.after hostOps0 _ (Proc.devRef .tc main_v1) = _
  after_results

/-- and with W2 as launched: no host operation writes it. -/
theorem w2_in (c : Dev nD) : PoolValue.w2In (Run.V1 m) c = argW2 m c :=
  StableHlo.after_of_writes_sub hostOps0 _ hostOps0_writes (by decide)

/-- The last host operation views the scaled flattened array at four axes. -/
theorem result_cast (c : Dev nD) :
    result m c = shapeCast S32x512x64x64 (scaled3 m c) shapeCasts_S32x512x4096_S32x512x64x64 := by
  show StableHlo.after hostOps2 _ (Proc.devRef .tc main_v4) = _
  after_results
  rfl

/-- The scaled flattened array is what the scaling region's output window leaves. -/
theorem scaled3_eq (c : Dev nD) : scaled3 m c = Scale.flatOut (Run.V2 m) c := Run.W3_arr m c 2

/-- The scaling region finds the flattened x as the pooling region found it: an input window's array is never
    written back. -/
theorem scale_flat_in (c : Dev nD) : Scale.flatIn (Run.V2 m) c = PoolValue.flatIn (Run.V1 m) c :=
  (Run.W2_arr m c 0).trans (((Pool.dat (Run.V1 m) c).arrAt_in 0 rfl _).trans (Pool.dat_A (Run.V1 m) c 0))

/-- The scaling region finds the gate array as the pooling region's output window left it. -/
theorem gate_in (c : Dev nD) : Scale.gateIn (Run.V2 m) c = PoolValue.gateOut (Run.V1 m) c := Run.W2_arr m c 3

/-! ## Flattening and un-flattening at an index -/

/-- A vector over the flattened shape, viewed at four axes, reads at (b, p, h, w) its entry (b, p, 64 h + w):
    the two indices have the same row-major position. -/
theorem unflatten_apply {α : Type} (f : S32x512x4096.Idx → α) (hc : S32x512x4096.ShapeCasts S32x512x64x64)
    (b : Fin 32) (p : Fin 512) (h w : Fin 64) :
    shapeCast S32x512x64x64 f hc (ix4 b p h w) = f (ix3 b p (⟨64 * h.val + w.val, by omega⟩ : Fin 4096)) :=
  shapeCast_apply f hc _ _ (by
    rw [Shape.rowMajor_val_three, Shape.rowMajor_val_four]
    show (b.val * 512 + p.val) * 4096 + (64 * h.val + w.val) = ((b.val * 512 + p.val) * 64 + h.val) * 64 + w.val
    omega)

/-- A vector over the four axes, flattened, reads at (b, p, 64 h + w) its entry (b, p, h, w). -/
theorem flatten_apply {α : Type} (x : S32x512x64x64.Idx → α) (hc : S32x512x64x64.ShapeCasts S32x512x4096)
    (b : Fin 32) (p : Fin 512) (h w : Fin 64) :
    shapeCast S32x512x4096 x hc (ix3 b p (⟨64 * h.val + w.val, by omega⟩ : Fin 4096)) = x (ix4 b p h w) :=
  shapeCast_apply x hc _ _ (by
    rw [Shape.rowMajor_val_three, Shape.rowMajor_val_four]
    show ((b.val * 512 + p.val) * 64 + h.val) * 64 + w.val = (b.val * 512 + p.val) * 4096 + (64 * h.val + w.val)
    omega)

/-- The specification at an index (b, p, h, w). -/
theorem G_apply (x : FVec Ideal Cert.SE.SX .f32) (w1 : FVec Ideal Cert.SE.SW1 .f32) (w2 : FVec Ideal Cert.SE.SW .f32)
    (b : Fin 32) (p : Fin 512) (h w : Fin 64) :
    Cert.SE.G x w1 w2 (ix4 b p h w)
      = x (ix4 b p h w) * Cert.SE.excite (F := Ideal) (Cert.SE.squeezeCol x b)
          (transpose Cert.SE.SW [1, 0] w1 (by decide)) w2 (ix2 p (0 : Fin 1)) := rfl

/-! ## The two factors of an entry of the scaled array -/

/-- The flattened x the scaling region finds, at (b, p, 64 h + w), is x at (b, p, h, w). -/
theorem flat_value (c : Dev nD) (b : Fin 32) (p : Fin 512) (h w : Fin 64) :
    Scale.flatIn (Run.V2 m) c (ix3 b p (⟨64 * h.val + w.val, by omega⟩ : Fin 4096)) = argX m c (ix4 b p h w) :=
  (congrFun ((scale_flat_in m c).trans (flat_in m c)) _).trans (flatten_apply (argX m c) _ b p h w)

/-- The gate array the scaling region finds, at (b, p, 0), is the excitation of batch element b's accumulated
    half sums of the flattened x, read at channel p. -/
theorem gate_apply (c : Dev nD) (b : Fin 32) (p : Fin 512) :
    Scale.gateIn (Run.V2 m) c (ix3 b p (0 : Fin 1))
      = Cert.SE.excite (F := Ideal) (Cert.SE.tileSums (PoolValue.flatIn (Run.V1 m) c) b)
          (PoolValue.w1tIn (Run.V1 m) c) (PoolValue.w2In (Run.V1 m) c) (ix2 p (0 : Fin 1)) :=
  congrFun ((gate_in m c).trans (PoolValue.final (Run.V1 m) c)) (ix3 b p (0 : Fin 1))

/-- The same over the arguments: the half sums of the flattened x are the squeeze of x. -/
theorem gate_value (c : Dev nD) (b : Fin 32) (p : Fin 512) :
    Scale.gateIn (Run.V2 m) c (ix3 b p (0 : Fin 1))
      = Cert.SE.excite (F := Ideal) (Cert.SE.squeezeCol (argX m c) b)
          (transpose Cert.SE.SW [1, 0] (argW1 m c) (by decide)) (argW2 m c) (ix2 p (0 : Fin 1)) := by
  refine (gate_apply m c b p).trans ?_
  rw [flat_in m c, w1t_in m c, w2_in m c]
  exact congrArg (fun a => Cert.SE.excite (F := Ideal) a (transpose Cert.SE.SW [1, 0] (argW1 m c) (by decide)) (argW2 m c)
    (ix2 p (0 : Fin 1))) (Cert.SE.tileSums_flatten (argX m c) b)

/-- The result array is x scaled by the gates. -/
theorem result_eq (c : Dev nD) : result m c = Cert.SE.G (argX m c) (argW1 m c) (argW2 m c) := by
  funext i
  obtain ⟨b, p, h, w, rfl⟩ : ∃ (b : Fin 32) (p : Fin 512) (h w : Fin 64), i = ix4 b p h w := ⟨i 0, i 1, i 2, i 3, eq_ix4 i⟩
  refine (congrFun (result_cast m c) _).trans ?_
  refine (unflatten_apply (scaled3 m c) _ b p h w).trans ?_
  refine (congrFun ((scaled3_eq m c).trans (Scale.final (Run.V2 m) c)) _).trans ?_
  show Scale.flatIn (Run.V2 m) c (ix3 b p (⟨64 * h.val + w.val, by omega⟩ : Fin 4096))
      * Scale.gateIn (Run.V2 m) c (ix3 b p (0 : Fin 1)) = _
  rw [flat_value m c b p h w, gate_value m c b p]
  exact (G_apply (argX m c) (argW1 m c) (argW2 m c) b p h w).symm

/-- The last boundary's contents at the arguments are the launch contents. -/
theorem kept_arg0 (c : Dev nD) : Run.W4 m c (Proc.devRef .tc main_arg0) = m ((c : Thread nD τ).loc main_arg0) :=
  (StableHlo.after_of_writes_sub hostOps2 _ hostOps2_writes (by decide)).trans <|
    (Run.W3_of_ne m c main_arg0 (by decide)).trans <|
    (Run.W2_of_ne m c main_arg0 (by decide)).trans <|
    StableHlo.after_of_writes_sub hostOps0 _ hostOps0_writes (by decide)
theorem kept_arg1 (c : Dev nD) : Run.W4 m c (Proc.devRef .tc main_arg1) = m ((c : Thread nD τ).loc main_arg1) :=
  (StableHlo.after_of_writes_sub hostOps2 _ hostOps2_writes (by decide)).trans <|
    (Run.W3_of_ne m c main_arg1 (by decide)).trans <|
    (Run.W2_of_ne m c main_arg1 (by decide)).trans <|
    StableHlo.after_of_writes_sub hostOps0 _ hostOps0_writes (by decide)
theorem kept_arg2 (c : Dev nD) : Run.W4 m c (Proc.devRef .tc main_arg2) = m ((c : Thread nD τ).loc main_arg2) :=
  (StableHlo.after_of_writes_sub hostOps2 _ hostOps2_writes (by decide)).trans <|
    (Run.W3_of_ne m c main_arg2 (by decide)).trans <|
    (Run.W2_arr m c 2).trans <|
    ((Pool.dat (Run.V1 m) c).arrAt_in 2 rfl _).trans <|
    (Pool.dat_A (Run.V1 m) c 2).trans <|
    StableHlo.after_of_writes_sub hostOps0 _ hostOps0_writes (by decide)
/-- The reference's run ends with the result array at that function of the arguments, the arguments unchanged. -/
theorem run : θ_run defs (onTc (τ := τ) (main (F := Ideal))) ⟨m, fun _ => 0, ρ⟩ fun r => ∀ c : Dev nD,
      r.2.mem ((c : Thread nD τ).loc main_v4) = Cert.SE.G (argX m c) (argW1 m c) (argW2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c _ (Run.mem_uc main_v4 (by decide))).trans (result_eq m c),
     (h c _ (Run.mem_uc main_arg0 (by decide))).trans (kept_arg0 m c),
     (h c _ (Run.mem_uc main_arg1 (by decide))).trans (kept_arg1 m c),
     (h c _ (Run.mem_uc main_arg2 (by decide))).trans (kept_arg2 m c)⟩)
    (Run.run_all m ρ)

end Cert.ReferenceIdeal.HandValue

end
-- ==== Proof.lean ====
/-
  The certificate of a squeeze-and-excitation layer: a one-pass kernel against a two-pass reference.

  Both programs take x : f32[32, 512, 64, 64], W1 : f32[32, 512], W2 : f32[512, 32] and return x scaled, per batch
  element b and channel c, by the gate logistic(sum_j W2[c, j] * max(sum_c' W1[j, c'] * (s[b, c'] * 2^-12), 0)) where
  s[b, c'] is the sum of x[b, c', ., .] over the 64 x 64 positions.  The kernel computes s in one reduction over the
  two spatial axes and keeps the gates of a batch element in a scratch column across its two grid points; the reference
  flattens the spatial axes, adds two half sums of 2048 terms to a zero accumulator in a first kernel region, writes
  the gates to an array, scales the flattened x by it in a second region and reshapes the product back.  Over the
  extended reals the two are one function (Spec): sums of extended reals may be regrouped and re-indexed freely, and
  everything after the sums is the same chain of operations on both sides.  No finiteness of the inputs is used.

  The two kernel frames are the generated ones.  The reference's frame and value come from its run through its four
  segments (RefRun) with the pooling region's data (RefPool, RefPoolValue) and the scaling region's (RefScale), read
  back at the result array (RefValue); the kernel's value from its generated blockwise value leg (KernelValue).
  The idealization rewrote nothing, so the preservation conjunct is trivial.
-/
import proofs.«159505_g2000407024704625_pallasbulk_269_7_alg».proof.Defs
import proofs.«159505_g2000407024704625_pallasbulk_269_7_alg».proof.Proof.Gen.Kernel
import proofs.«159505_g2000407024704625_pallasbulk_269_7_alg».proof.Proof.Gen.Kernel.Frame
import proofs.«159505_g2000407024704625_pallasbulk_269_7_alg».proof.Proof.Gen.KernelIdeal
import proofs.«159505_g2000407024704625_pallasbulk_269_7_alg».proof.Proof.Gen.KernelIdeal.Frame
import proofs.«159505_g2000407024704625_pallasbulk_269_7_alg».proof.Proof.Gen.ReferenceIdeal
import proofs.«159505_g2000407024704625_pallasbulk_269_7_alg».proof.Proof.Gen.Pre_finite_inputs
import proofs.«159505_g2000407024704625_pallasbulk_269_7_alg».proof.Proof.KernelValue
import proofs.«159505_g2000407024704625_pallasbulk_269_7_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its value run with the result dropped. -/
theorem frame_reference : Cert.frame_ReferenceIdeal := fun m ρ _ =>
  (θ_run Cert.ReferenceIdeal.defs _ _).mono (fun _ h c => (h c).2) (Cert.ReferenceIdeal.HandValue.run m ρ)

/-- From memories agreeing on the arguments both idealized programs end with the result array at the specification's
    function of the arguments. -/
theorem algebraic : Cert.algebraic_KernelIdeal_ReferenceIdeal := by
  intro m ρ m' ρ' _ hagree
  refine ⟨fun c => Cert.SE.G (Cert.KernelIdeal.HandValue.argX m c) (Cert.KernelIdeal.HandValue.argW1 m c)
    (Cert.KernelIdeal.HandValue.argW2 m c), Cert.KernelIdeal.HandValue.run m ρ, ?_⟩
  refine (θ_run Cert.ReferenceIdeal.defs _ _).mono (fun r h c => ⟨(h c).1.trans ?_, (h c).2⟩)
    (Cert.ReferenceIdeal.HandValue.run m' ρ')
  have h0 : Cert.ReferenceIdeal.HandValue.argX m' c = Cert.KernelIdeal.HandValue.argX m c := (hagree c).1
  have h1 : Cert.ReferenceIdeal.HandValue.argW1 m' c = Cert.KernelIdeal.HandValue.argW1 m c := (hagree c).2.1
  have h2 : Cert.ReferenceIdeal.HandValue.argW2 m' c = Cert.KernelIdeal.HandValue.argW2 m c := (hagree c).2.2
  show Cert.SE.G (Cert.ReferenceIdeal.HandValue.argX m' c) (Cert.ReferenceIdeal.HandValue.argW1 m' c)
      (Cert.ReferenceIdeal.HandValue.argW2 m' c) = _
  rw [h0, h1, h2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
